-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S10000x128 : Shape := ⟨2, ![10000, 128]⟩
abbrev S10000x16 : Shape := ⟨2, ![10000, 16]⟩
abbrev S3200000x16 : Shape := ⟨2, ![3200000, 16]⟩
abbrev S1x16 : Shape := ⟨2, ![1, 16]⟩
abbrev S100000x40 : Shape := ⟨2, ![100000, 40]⟩
abbrev S10000x1 : Shape := ⟨2, ![10000, 1]⟩
abbrev S10000x40 : Shape := ⟨2, ![10000, 40]⟩
abbrev S3200000x40 : Shape := ⟨2, ![3200000, 40]⟩
abbrev S1x40 : Shape := ⟨2, ![1, 40]⟩
abbrev S10000 : Shape := ⟨1, ![10000]⟩

abbrev nBuf : Space → Nat
  | .hbm => 78
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S100000x16, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x16, .f32⟩
  | .hbm, ⟨51, _⟩ => ⟨S3200000x1, .f32⟩
  | .hbm, ⟨52, _⟩ => ⟨S3200000x16, .f32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S1x16, .f32⟩
  | .hbm, ⟨59, _⟩ => ⟨S100000x40, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x40, .f32⟩
  | .hbm, ⟨69, _⟩ => ⟨S3200000x1, .f32⟩
  | .hbm, ⟨70, _⟩ => ⟨S3200000x40, .f32⟩
  | .hbm, ⟨71, _⟩ => ⟨S3200000x40, .f32⟩
  | .hbm, ⟨72, _⟩ => ⟨S_, .f32⟩
  | .hbm, ⟨73, _⟩ => ⟨S100000x40, .f32⟩
  | .hbm, ⟨74, _⟩ => ⟨S3200000x1, .i32⟩
  | .hbm, ⟨75, _⟩ => ⟨S100000x40, .f32⟩
  | .hbm, ⟨76, _⟩ => ⟨S1x40, .f32⟩
  | .hbm, ⟨77, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S16x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S10000x40, .f32⟩
  | .local _ .vmem, ⟨18, _⟩ => ⟨S10000x40, .f32⟩
  | .local _ .vmem, ⟨19, _⟩ => ⟨S10000x1, .f32⟩
  | .local _ .vmem, ⟨20, _⟩ => ⟨S10000x1, .f32⟩
  | .local _ .vmem, ⟨21, _⟩ => ⟨S1x40, .f32⟩
  | .local _ .vmem, ⟨22, _⟩ => ⟨S10000x40, .f32⟩
  | .local _ .vmem, ⟨23, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  broadcasts_S10000x1_S10000x40 : S10000x1.Broadcasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x16_S10000x16_1_0_0_1_n_n_wf : DotDims.WF S10000x128 S128x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x40_S10000x40_1_0_0_1_n_n_wf : DotDims.WF S10000x16 S16x40 S10000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x40.size a ≤ S16x40.size a
  hwx1_4 : ∀ i : grid1.Coords, EltTy.bits .f32 = 32 ∨ (Rect.block (s := S16x40) S16x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x40.size a ≤ S100000x40.size a
  hwx1_5 : ∀ i : grid1.Coords, EltTy.bits .f32 = 32 ∨ (Rect.block (s := S100000x40) S10000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S100000x40.size a
  hwx2_1 : ∀ i : grid2.Coords, EltTy.bits .f32 = 32 ∨ (Rect.block (s := S100000x40) S10000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x40.size a ≤ S100000x40.size a
  hwx2_4 : ∀ i : grid2.Coords, EltTy.bits .f32 = 32 ∨ (Rect.block (s := S100000x40) S10000x40.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S10000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S10000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S_, .f32⟩
  | 12 => ⟨S3200000, .f32⟩
  | 13 => ⟨S_, .f32⟩
  | 14 => ⟨S100000, .f32⟩
  | 15 => ⟨S3200000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x16, .f32⟩
  | 49 => ⟨S3200000x1, .f32⟩
  | 50 => ⟨S3200000x16, .f32⟩
  | 51 => ⟨S3200000x16, .f32⟩
  | 52 => ⟨S_, .f32⟩
  | 53 => ⟨S100000x16, .f32⟩
  | 54 => ⟨S3200000x1, .i32⟩
  | 55 => ⟨S100000x16, .f32⟩
  | 56 => ⟨S100000, .f32⟩
  | 57 => ⟨S100000x1, .f32⟩
  | 58 => ⟨S100000x16, .f32⟩
  | 59 => ⟨S100000x16, .f32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000x40, .f32⟩
  | 68 => ⟨S_, .f32⟩
  | 69 => ⟨S3200000, .f32⟩
  | 70 => ⟨S_, .f32⟩
  | 71 => ⟨S100000, .f32⟩
  | 72 => ⟨S3200000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000, .f32⟩
  | 96 => ⟨S3200000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000x40, .f32⟩
  | 106 => ⟨S3200000x1, .f32⟩
  | 107 => ⟨S3200000x40, .f32⟩
  | 108 => ⟨S3200000x40, .f32⟩
  | 109 => ⟨S_, .f32⟩
  | 110 => ⟨S100000x40, .f32⟩
  | 111 => ⟨S3200000x1, .i32⟩
  | 112 => ⟨S100000x40, .f32⟩
  | 113 => ⟨S100000, .f32⟩
  | 114 => ⟨S100000x1, .f32⟩
  | 115 => ⟨S100000x40, .f32⟩
  | 116 => ⟨S100000x40, .f32⟩
  | 117 => ⟨S100000x40, .f32⟩
  | 118 => ⟨S1x40, .f32⟩
  | 119 => ⟨S100000x40, .f32⟩
  | 120 => ⟨S100000x40, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x40, .f32⟩
  | _ => ⟨S100000x128, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S100000x1, .f32⟩
  | 5 => ⟨S100000x1, .f32⟩
  | 6 => ⟨S100000x40, .f32⟩
  | 7 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x128_S128x16_S100000x16_1_0_0_1_n_n_wf : DotDims.WF S100000x128 S128x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.Spec.lean ====
/-
  The mathematics of the two-layer graph convolution, as whole-array functions.

  With N = 100000 nodes and E = 3200000 edges (src, dst the two rows of the edge array):
    deg   = 1 + (number of edges into each node),  dinv = deg^(-1/2),
    norm e = dinv (src e) · dinv (dst e),
    agg H = Σ over edges e into a node of  H (src e) · norm e      (a gather, a product, a scatter-add),
    layer H b = agg H + H · dinv² + b.
  The network is  log_softmax (layer (relu (layer (x·W1) b1) · W2) b2).

  Everything indexed by the edge array (degrees, the gathers, the scatter-adds) is spelt here ONCE, in the
  host operations both programs print, and is never opened: both programs apply it to the same arguments.
  What differs between them — whole matrix products against products of row blocks, the combine steps on
  whole arrays against row blocks — is compared index by index elsewhere.
-/
import proofs.«154756_j28063316312557_1_alg».proof.ReferenceIdeal
import proofs.«154756_j28063316312557_1_alg».proof.Proof.Gen.ReferenceIdeal

noncomputable section

namespace Cert.Spec

open Idealize.ShloMosaic Cert.ReferenceIdeal Cert.ReferenceIdeal.Facts₀

variable {F : FTy → Type} [FloatOps F]

/-- The source node of every edge: row 0 of the edge array. -/
def srcOf (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The target node of every edge: row 1 of the edge array. -/
def dstOf (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- Node numbers as a gather takes them: a negative number counted from the end, one index per row. -/
def wrapIdx (v : (⟨S3200000, .i32⟩ : BufTy).Contents (Elt F)) : (⟨S3200000x1, .i32⟩ : BufTy).Contents (Elt F) :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- Node numbers as a scatter takes them: as they are, one index per row. -/
def colIdx (v : (⟨S3200000, .i32⟩ : BufTy).Contents (Elt F)) : (⟨S3200000x1, .i32⟩ : BufTy).Contents (Elt F) :=
  broadcastInDim S3200000x1 ![0] bcast_S3200000_S3200000x1_0 v

/-- deg^(-1/2): one plus the number of edges into each node, to the power -1/2. -/
def dinvOf (dst : (⟨S3200000, .i32⟩ : BufTy).Contents (Elt F)) : (⟨S100000, .f32⟩ : BufTy).Contents (Elt F) :=
  Host.rsqrt (addf
    (Host.scatterAdd scatter_S100000_S3200000x1_S3200000_n_0_0_1
      (broadcastInDim S100000 ![] bcast_S_S100000 (constant S_ .f32 0x00000000#32)) (colIdx dst)
      (broadcastInDim S3200000 ![] bcast_S_S3200000 (constant S_ .f32 0x3F800000#32)))
    (broadcastInDim S100000 ![] bcast_S_S100000 (constant S_ .f32 0x3F800000#32)))

/-- The weight of every edge: dinv at its source times dinv at its target. -/
def normOf (dinv : (⟨S100000, .f32⟩ : BufTy).Contents (Elt F)) (src dst : (⟨S3200000, .i32⟩ : BufTy).Contents (Elt F)) :
    (⟨S3200000, .f32⟩ : BufTy).Contents (Elt F) :=
  mulf (Host.gather gather_S100000_S3200000x1_S3200000_n_0_n_n_0_1_1 dinv (wrapIdx src))
    (Host.gather gather_S100000_S3200000x1_S3200000_n_0_n_n_0_1_1 dinv (wrapIdx dst))

/-- The neighbourhood sum of a 16-column feature array: rows gathered at the sources, weighted, added at the targets. -/
def agg16 (h : (⟨S100000x16, .f32⟩ : BufTy).Contents (Elt F)) (src dst : (⟨S3200000, .i32⟩ : BufTy).Contents (Elt F))
    (norm : (⟨S3200000, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32)) (colIdx dst)
    (mulf (Host.gather gather_S100000x16_S3200000x1_S3200000x16_1_0_n_n_0_1_116 h (wrapIdx src))
      (broadcastInDim S3200000x16 ![0, 1] bcast_S3200000x1_S3200000x16_0_1
        (broadcastInDim S3200000x1 ![0] bcast_S3200000_S3200000x1_0 norm)))

/-- The neighbourhood sum of a 40-column feature array. -/
def agg40 (h : (⟨S100000x40, .f32⟩ : BufTy).Contents (Elt F)) (src dst : (⟨S3200000, .i32⟩ : BufTy).Contents (Elt F))
    (norm : (⟨S3200000, .f32⟩ : BufTy).Contents (Elt F)) : (⟨S100000x40, .f32⟩ : BufTy).Contents (Elt F) :=
  Host.scatterAdd scatter_S100000x40_S3200000x1_S3200000x40_1_0_0_1
    (broadcastInDim S100000x40 ![] bcast_S_S100000x40 (constant S_ .f32 0x00000000#32)) (colIdx dst)
    (mulf (Host.gather gather_S100000x40_S3200000x1_S3200000x40_1_0_n_n_0_1_140 h (wrapIdx src))
      (broadcastInDim S3200000x40 ![0, 1] bcast_S3200000x1_S3200000x40_0_1
        (broadcastInDim S3200000x1 ![0] bcast_S3200000_S3200000x1_0 norm)))

/-- Layer 1 after its relu, on whole arrays: max (a + h · dinv² + b, 0), dinv² down each row, b along each row. -/
def hidden (h a : (⟨S100000x16, .f32⟩ : BufTy).Contents (Elt F)) (dinv : (⟨S100000, .f32⟩ : BufTy).Contents (Elt F))
    (b : (⟨S16, .f32⟩ : BufTy).Contents (Elt F)) : (⟨S100000x16, .f32⟩ : BufTy).Contents (Elt F) :=
  maximumf
    (addf (addf a (mulf h (broadcastInDim S100000x16 ![0, 1] bcast_S100000x1_S100000x16_0_1
        (broadcastInDim S100000x1 ![0] bcast_S100000_S100000x1_0 (mulf dinv dinv)))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- Layer 2 before the softmax, on whole arrays: a + h · dinv² + b. -/
def logits (h a : (⟨S100000x40, .f32⟩ : BufTy).Contents (Elt F)) (dinv : (⟨S100000, .f32⟩ : BufTy).Contents (Elt F))
    (b : (⟨S40, .f32⟩ : BufTy).Contents (Elt F)) : (⟨S100000x40, .f32⟩ : BufTy).Contents (Elt F) :=
  addf (addf a (mulf h (broadcastInDim S100000x40 ![0, 1] bcast_S100000x1_S100000x40_0_1
      (broadcastInDim S100000x1 ![0] bcast_S100000_S100000x1_0 (mulf dinv dinv)))))
    (broadcastInDim S100000x40 ![0, 1] bcast_S1x40_S100000x40_0_1 (broadcastInDim S1x40 ![1] bcast_S40_S1x40_1 b))

/-- A row's entries less the row's maximum. -/
def shifted (z : (⟨S100000x40, .f32⟩ : BufTy).Contents (Elt F)) : (⟨S100000x40, .f32⟩ : BufTy).Contents (Elt F) :=
  subf z (broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x40_S100000_d1 h_S_))))

/-- The row-wise log-softmax: the shifted entries less the logarithm of the sum of their exponentials. -/
def logSoftmax (z : (⟨S100000x40, .f32⟩ : BufTy).Contents (Elt F)) : (⟨S100000x40, .f32⟩ : BufTy).Contents (Elt F) :=
  subf (shifted z) (broadcastInDim S100000x40 ![0, 1] bcast_S100000x1_S100000x40_0_1
    (Host.log (broadcastInDim S100000x1 ![0] bcast_S100000_S100000x1_0
      (Host.reduceAdd (Host.exp (shifted z)) (constant S_ .f32 0x00000000#32) reducesTo_S100000x40_S100000_d1 h_S_))))

/-- The first layer's product, whole. -/
def feat1 (x : (⟨S100000x128, .f32⟩ : BufTy).Contents (Elt F)) (w : (⟨S128x16, .f32⟩ : BufTy).Contents (Elt F)) :
    (⟨S100000x16, .f32⟩ : BufTy).Contents (Elt F) :=
  Host.dotGeneral dot_S100000x128_S128x16_S100000x16_1_0_0_1_n_n none x w

/-- The second layer's product, whole. -/
def feat2 (l : (⟨S100000x16, .f32⟩ : BufTy).Contents (Elt F)) (w : (⟨S16x40, .f32⟩ : BufTy).Contents (Elt F)) :
    (⟨S100000x40, .f32⟩ : BufTy).Contents (Elt F) :=
  Host.dotGeneral dot_S100000x16_S16x40_S100000x40_1_0_0_1_n_n none l w

/-- The second layer's features from the first layer's, the edge data and the parameters. -/
def feat2Of (h1 : (⟨S100000x16, .f32⟩ : BufTy).Contents (Elt F)) (e : (⟨S2x3200000, .i32⟩ : BufTy).Contents (Elt F))
    (b1 : (⟨S16, .f32⟩ : BufTy).Contents (Elt F)) (w2 : (⟨S16x40, .f32⟩ : BufTy).Contents (Elt F)) :
    (⟨S100000x40, .f32⟩ : BufTy).Contents (Elt F) :=
  feat2 (hidden h1 (agg16 h1 (srcOf e) (dstOf e) (normOf (dinvOf (dstOf e)) (srcOf e) (dstOf e))) (dinvOf (dstOf e)) b1) w2

/-- The output from the second layer's features, the edge data and the bias. -/
def outOf (h2 : (⟨S100000x40, .f32⟩ : BufTy).Contents (Elt F)) (e : (⟨S2x3200000, .i32⟩ : BufTy).Contents (Elt F))
    (b2 : (⟨S40, .f32⟩ : BufTy).Contents (Elt F)) : (⟨S100000x40, .f32⟩ : BufTy).Contents (Elt F) :=
  logSoftmax (logits h2 (agg40 h2 (srcOf e) (dstOf e) (normOf (dinvOf (dstOf e)) (srcOf e) (dstOf e))) (dinvOf (dstOf e)) b2)

/-- The whole network on whole arrays. -/
def network (x : (⟨S100000x128, .f32⟩ : BufTy).Contents (Elt F)) (e : (⟨S2x3200000, .i32⟩ : BufTy).Contents (Elt F))
    (w1 : (⟨S128x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) :
    (⟨S100000x40, .f32⟩ : BufTy).Contents (Elt F) :=
  outOf (feat2Of (feat1 x w1) e b1 w2) e b2

/-- The unfolding equation of every definition above, stated once here beside the definitions (the modules that open
    a definition cite the equation from here). -/
theorem unfolding_equations : True := by
  have := @srcOf.eq_1; have := @srcOf.eq_def
  have := @dstOf.eq_1; have := @dstOf.eq_def
  have := @wrapIdx.eq_1; have := @wrapIdx.eq_def
  have := @colIdx.eq_1; have := @colIdx.eq_def
  have := @dinvOf.eq_1; have := @dinvOf.eq_def
  have := @normOf.eq_1; have := @normOf.eq_def
  have := @agg16.eq_1; have := @agg16.eq_def
  have := @agg40.eq_1; have := @agg40.eq_def
  have := @hidden.eq_1; have := @hidden.eq_def
  have := @logits.eq_1; have := @logits.eq_def
  have := @shifted.eq_1; have := @shifted.eq_def
  have := @logSoftmax.eq_1; have := @logSoftmax.eq_def
  have := @feat1.eq_1; have := @feat1.eq_def
  have := @feat2.eq_1; have := @feat2.eq_def
  have := @feat2Of.eq_1; have := @feat2Of.eq_def
  have := @outOf.eq_1; have := @outOf.eq_def
  have := @network.eq_1; have := @network.eq_def
  trivial

end Cert.Spec

end
-- ==== Proof.HostStretch.lean ====
/-
  The host operations between the kernel regions, one stretch at a time, from ANY buffer contents `W`:
  what each stretch leaves in the buffers a later region or stretch reads, as the whole-array functions of
  Spec.lean applied to `W` at the buffers the stretch reads; and that it leaves alone the buffers it does not write.

  Stretch 0 (before the first region) turns the edge array into the source and target lists, dinv, the column dinv²
  and the edge weights. Stretch 1 (between the first and second regions) is the 16-column neighbourhood sum of the
  first region's product, and the first bias laid as a row. Stretch 2 (between the second and third regions) is the
  40-column neighbourhood sum of the second region's product, and the second bias laid as a row.
-/
import proofs.«154756_j28063316312557_1_alg».proof.Proof.Gen.KernelIdeal.Launch
import proofs.«154756_j28063316312557_1_alg».proof.Proof.Spec
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-! ## Stretch 0 -/

/-- The source list is row 0 of the edge array. -/
theorem ops0_src : after (hostOps0 (F := F)) W (Proc.devRef .tc main_v1) = Cert.Spec.srcOf (W (Proc.devRef .tc main_arg1)) := by
  after_results_simp
  unfold Cert.Spec.srcOf
  rfl

/-- The target list is row 1 of the edge array. -/
theorem ops0_dst : after (hostOps0 (F := F)) W (Proc.devRef .tc main_v3) = Cert.Spec.dstOf (W (Proc.devRef .tc main_arg1)) := by
  after_results_simp
  unfold Cert.Spec.dstOf
  rfl

/-- The column the regions multiply by is dinv · dinv laid as a column. -/
theorem ops0_col : after (hostOps0 (F := F)) W (Proc.devRef .tc main_v12)
    = shapeCast S100000x1 (mulf (Cert.Spec.dinvOf (Cert.Spec.dstOf (W (Proc.devRef .tc main_arg1)))) (Cert.Spec.dinvOf (Cert.Spec.dstOf (W (Proc.devRef .tc main_arg1)))))
        Facts₀.shapeCasts_S100000_S100000x1 := by
  after_results_simp
  unfold Cert.Spec.dinvOf Cert.Spec.dstOf Cert.Spec.colIdx
  rfl

/-- The edge weights. -/
theorem ops0_norm : after (hostOps0 (F := F)) W (Proc.devRef .tc main_v27)
    = Cert.Spec.normOf (Cert.Spec.dinvOf (Cert.Spec.dstOf (W (Proc.devRef .tc main_arg1)))) (Cert.Spec.srcOf (W (Proc.devRef .tc main_arg1)))
        (Cert.Spec.dstOf (W (Proc.devRef .tc main_arg1))) := by
  after_results_simp
  unfold Cert.Spec.normOf Cert.Spec.dinvOf Cert.Spec.srcOf Cert.Spec.dstOf Cert.Spec.colIdx Cert.Spec.wrapIdx
  rfl

theorem ops0_keep_arg0 : after (hostOps0 (F := F)) W (Proc.devRef .tc main_arg0) = W (Proc.devRef .tc main_arg0) := by after_results_simp
theorem ops0_keep_arg2 : after (hostOps0 (F := F)) W (Proc.devRef .tc main_arg2) = W (Proc.devRef .tc main_arg2) := by after_results_simp
theorem ops0_keep_arg3 : after (hostOps0 (F := F)) W (Proc.devRef .tc main_arg3) = W (Proc.devRef .tc main_arg3) := by after_results_simp
theorem ops0_keep_arg4 : after (hostOps0 (F := F)) W (Proc.devRef .tc main_arg4) = W (Proc.devRef .tc main_arg4) := by after_results_simp
theorem ops0_keep_arg5 : after (hostOps0 (F := F)) W (Proc.devRef .tc main_arg5) = W (Proc.devRef .tc main_arg5) := by after_results_simp

/-! ## Stretch 1 -/

/-- The 16-column neighbourhood sum of the first region's product. -/
theorem ops1_agg : after (hostOps1 (F := F)) W (Proc.devRef .tc main_v41)
    = Cert.Spec.agg16 (W (Proc.devRef .tc main_v28)) (W (Proc.devRef .tc main_v1)) (W (Proc.devRef .tc main_v3)) (W (Proc.devRef .tc main_v27)) := by
  after_results_simp
  unfold Cert.Spec.agg16 Cert.Spec.colIdx Cert.Spec.wrapIdx
  rfl

/-- The first bias laid as a row. -/
theorem ops1_row : after (hostOps1 (F := F)) W (Proc.devRef .tc main_v42) = shapeCast S1x16 (W (Proc.devRef .tc main_arg3)) Facts₀.shapeCasts_S16_S1x16 := by
  after_results_simp
  rfl

theorem ops1_keep_v28 : after (hostOps1 (F := F)) W (Proc.devRef .tc main_v28) = W (Proc.devRef .tc main_v28) := by after_results_simp
theorem ops1_keep_v12 : after (hostOps1 (F := F)) W (Proc.devRef .tc main_v12) = W (Proc.devRef .tc main_v12) := by after_results_simp
theorem ops1_keep_arg4 : after (hostOps1 (F := F)) W (Proc.devRef .tc main_arg4) = W (Proc.devRef .tc main_arg4) := by after_results_simp
theorem ops1_keep_v1 : after (hostOps1 (F := F)) W (Proc.devRef .tc main_v1) = W (Proc.devRef .tc main_v1) := by after_results_simp
theorem ops1_keep_v3 : after (hostOps1 (F := F)) W (Proc.devRef .tc main_v3) = W (Proc.devRef .tc main_v3) := by after_results_simp
theorem ops1_keep_v27 : after (hostOps1 (F := F)) W (Proc.devRef .tc main_v27) = W (Proc.devRef .tc main_v27) := by after_results_simp
theorem ops1_keep_arg5 : after (hostOps1 (F := F)) W (Proc.devRef .tc main_arg5) = W (Proc.devRef .tc main_arg5) := by after_results_simp

/-! ## Stretch 2 -/

/-- The 40-column neighbourhood sum of the second region's product. -/
theorem ops2_agg : after (hostOps2 (F := F)) W (Proc.devRef .tc main_v56)
    = Cert.Spec.agg40 (W (Proc.devRef .tc main_v43)) (W (Proc.devRef .tc main_v1)) (W (Proc.devRef .tc main_v3)) (W (Proc.devRef .tc main_v27)) := by
  after_results_simp
  unfold Cert.Spec.agg40 Cert.Spec.colIdx Cert.Spec.wrapIdx
  rfl

/-- The second bias laid as a row. -/
theorem ops2_row : after (hostOps2 (F := F)) W (Proc.devRef .tc main_v57) = shapeCast S1x40 (W (Proc.devRef .tc main_arg5)) Facts₀.shapeCasts_S40_S1x40 := by
  after_results_simp
  rfl

theorem ops2_keep_v43 : after (hostOps2 (F := F)) W (Proc.devRef .tc main_v43) = W (Proc.devRef .tc main_v43) := by after_results_simp
theorem ops2_keep_v12 : after (hostOps2 (F := F)) W (Proc.devRef .tc main_v12) = W (Proc.devRef .tc main_v12) := by after_results_simp

end Cert.KernelIdeal.Stretch

end
-- ==== Proof.Region0Value.lean ====
import proofs.«154756_j28063316312557_1_alg».proof.Proof.Gen.KernelIdeal.Frame
import proofs.«154756_j28063316312557_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen Cert.KernelIdeal.Facts₀
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The block product at an index

One row block times the whole weight: entry (p, q) of the body's payload is the sum over the 128 shared
coordinates k of (block entry (p, k)) · (weight entry (k, q)). The two narrowings to the 16-bit format change
nothing at the exact reals, and the accumulator starts at zero. -/

/-- The operand coordinates of the block product at output entry i and shared coordinate q: the left operand is
    read at (row of i, q), the right at (q, column of i). One statement per operand and axis. -/
theorem blkLhs_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem blkLhs_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem blkRhs_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem blkRhs_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- Entry (row of j, k) of a row block. -/
abbrev blkRowAt (j : S10000x16.Idx) (k : Fin 128) : S10000x128.Idx := fun a => match a with
  | ⟨0, _⟩ => ⟨(j 0).val, (j 0).isLt⟩
  | ⟨1, _⟩ => ⟨k.val, k.isLt⟩
/-- Entry (k, column of j) of the weight. -/
abbrev wColAt (j : S10000x16.Idx) (k : Fin 128) : S128x16.Idx := fun a => match a with
  | ⟨0, _⟩ => ⟨k.val, k.isLt⟩
  | ⟨1, _⟩ => ⟨(j 1).val, (j 1).isLt⟩

/-- The body's payload at entry j: the 128-term sum of products along row (j 0) of the block and column (j 1) of the weight. -/
theorem blockProduct_apply (x0 : Vec Ideal S10000x128 .f32) (x1 : Vec Ideal S128x16 .f32) (j : S10000x16.Idx) :
    k0_pay1 (F := Ideal) x0 x1 j = ∑ k : Fin 128, x0 (blkRowAt j k) * x1 (wColAt j k) := by
  unfold k0_pay1
  simp only [matmul]
  rw [Ideal.matmul_constant_zero_apply, ← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx j ((ValueIdx.contrEquiv1 dot_S10000x128_S128x16_S10000x16_1_0_0_1_n_n 128 rfl rfl).symm k) = blkRowAt j k := funext fun a => Fin.ext (by
    match a with
    | ⟨0, _⟩ => exact blkLhs_0 _ _
    | ⟨1, _⟩ => exact (blkLhs_1 _ _).trans hk)
  have er : dot_S10000x128_S128x16_S10000x16_1_0_0_1_n_n.rhsIdx j ((ValueIdx.contrEquiv1 dot_S10000x128_S128x16_S10000x16_1_0_0_1_n_n 128 rfl rfl).symm k) = wColAt j k := funext fun a => Fin.ext (by
    match a with
    | ⟨0, _⟩ => exact (blkRhs_0 _ _).trans hk
    | ⟨1, _⟩ => exact blkRhs_1 _ _)
  rw [truncf_apply, truncf_apply, el, er]

/-! ## The whole product at an index

Entry (r, q) of the whole product is the sum over the same 128 coordinates k of (array entry (r, k)) · (weight
entry (k, q)). -/

/-- The same four coordinate facts for the whole product. -/
theorem wholeLhs_0 (i : Cert.ReferenceIdeal.S100000x16.Idx) (q : Cert.ReferenceIdeal.dot_S100000x128_S128x16_S100000x16_1_0_0_1_n_n.contr.Idx) :
    (Cert.ReferenceIdeal.dot_S100000x128_S128x16_S100000x16_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x16_S100000x16_1_0_0_1_n_n.lhsBatch by decide), dif_pos (show (0 : Fin Cert.ReferenceIdeal.S100000x128.rank) ∈ Cert.ReferenceIdeal.dot_S100000x128_S128x16_S100000x16_1_0_0_1_n_n.lhsNonContracting by decide)]
  rfl
theorem wholeLhs_1 (i : Cert.ReferenceIdeal.S100000x16.Idx) (q : Cert.ReferenceIdeal.dot_S100000x128_S128x16_S100000x16_1_0_0_1_n_n.contr.Idx) :
    (Cert.ReferenceIdeal.dot_S100000x128_S128x16_S100000x16_1_0_0_1_n_n.lhsIdx i q 1).val = (q ⟨0, by decide⟩).val :=
  Cert.ReferenceIdeal.dot_S100000x128_S128x16_S100000x16_1_0_0_1_n_n.lhsIdx_val_of_single rfl i q
theorem wholeRhs_0 (i : Cert.ReferenceIdeal.S100000x16.Idx) (q : Cert.ReferenceIdeal.dot_S100000x128_S128x16_S100000x16_1_0_0_1_n_n.contr.Idx) :
    (Cert.ReferenceIdeal.dot_S100000x128_S128x16_S100000x16_1_0_0_1_n_n.rhsIdx i q 0).val = (q ⟨0, by decide⟩).val :=
  Cert.ReferenceIdeal.dot_S100000x128_S128x16_S100000x16_1_0_0_1_n_n.rhsIdx_val_of_single rfl i q
theorem wholeRhs_1 (i : Cert.ReferenceIdeal.S100000x16.Idx) (q : Cert.ReferenceIdeal.dot_S100000x128_S128x16_S100000x16_1_0_0_1_n_n.contr.Idx) :
    (Cert.ReferenceIdeal.dot_S100000x128_S128x16_S100000x16_1_0_0_1_n_n.rhsIdx i q 1).val = (i 1).val := by
  unfold DotDims.rhsIdx
  rw [dif_neg (show ¬(1 : Fin Cert.ReferenceIdeal.S128x16.rank) ∈ Cert.ReferenceIdeal.dot_S100000x128_S128x16_S100000x16_1_0_0_1_n_n.rhsBatch by decide), dif_pos (show (1 : Fin Cert.ReferenceIdeal.S128x16.rank) ∈ Cert.ReferenceIdeal.dot_S100000x128_S128x16_S100000x16_1_0_0_1_n_n.rhsNonContracting by decide)]
  rfl

/-- Entry (row of i, k) of the whole array. -/
abbrev rowAt (i : Cert.ReferenceIdeal.S100000x16.Idx) (k : Fin 128) : Cert.ReferenceIdeal.S100000x128.Idx := fun a => match a with
  | ⟨0, _⟩ => ⟨(i 0).val, (i 0).isLt⟩
  | ⟨1, _⟩ => ⟨k.val, k.isLt⟩
/-- Entry (k, column of i) of the weight. -/
abbrev colAt (i : Cert.ReferenceIdeal.S100000x16.Idx) (k : Fin 128) : Cert.ReferenceIdeal.S128x16.Idx := fun a => match a with
  | ⟨0, _⟩ => ⟨k.val, k.isLt⟩
  | ⟨1, _⟩ => ⟨(i 1).val, (i 1).isLt⟩

/-- The whole product at entry i: the 128-term sum of products along row (i 0) of the array and column (i 1) of the weight. -/
theorem wholeProduct_apply (x : (⟨Cert.ReferenceIdeal.S100000x128, .f32⟩ : BufTy).Contents (Elt Ideal)) (w : (⟨Cert.ReferenceIdeal.S128x16, .f32⟩ : BufTy).Contents (Elt Ideal))
    (i : Cert.ReferenceIdeal.S100000x16.Idx) :
    Cert.Spec.feat1 (F := Ideal) x w i = ∑ k : Fin 128, x (rowAt i k) * w (colAt i k) := by
  unfold Cert.Spec.feat1
  simp only [Host.dotGeneral]
  rw [Ideal.dotGeneral_apply, ← Equiv.sum_comp (ValueIdx.contrEquiv1 Cert.ReferenceIdeal.dot_S100000x128_S128x16_S100000x16_1_0_0_1_n_n 128 rfl rfl).symm]
  refine Finset.sum_congr rfl fun k _ => ?_
  have hk := ValueIdx.contrEquiv1_symm_val Cert.ReferenceIdeal.dot_S100000x128_S128x16_S100000x16_1_0_0_1_n_n 128 rfl rfl k
  have el : Cert.ReferenceIdeal.dot_S100000x128_S128x16_S100000x16_1_0_0_1_n_n.lhsIdx i ((ValueIdx.contrEquiv1 Cert.ReferenceIdeal.dot_S100000x128_S128x16_S100000x16_1_0_0_1_n_n 128 rfl rfl).symm k) = rowAt i k := funext fun a => Fin.ext (by
    match a with
    | ⟨0, _⟩ => exact wholeLhs_0 _ _
    | ⟨1, _⟩ => exact (wholeLhs_1 _ _).trans hk)
  have er : Cert.ReferenceIdeal.dot_S100000x128_S128x16_S100000x16_1_0_0_1_n_n.rhsIdx i ((ValueIdx.contrEquiv1 Cert.ReferenceIdeal.dot_S100000x128_S128x16_S100000x16_1_0_0_1_n_n 128 rfl rfl).symm k) = colAt i k := funext fun a => Fin.ext (by
    match a with
    | ⟨0, _⟩ => exact (wholeRhs_0 _ _).trans hk
    | ⟨1, _⟩ => exact wholeRhs_1 _ _)
  rw [el, er]

/-! ## One grid point's write-back

Point t writes rows 10000·t … 10000·t + 9999 of the output. Its row block of the first operand sits at the same
block row, the weight is read whole, so entry (p, q) of what it writes is entry (10000·t + p, q) of the whole product. -/

/-- The offsets of a whole-buffer access are zero on both axes. -/
theorem zeroOffsets : (![0, 0] : Fin 2 → Nat) = fun _ => 0 := funext fun a => by fin_cases a <;> rfl

/-- The block coordinates over the ten points: the first operand's block row is the output's, every other block
    coordinate is zero, and the output's block row is at most nine. -/
theorem blockCoords : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten block rows is some point's. -/
theorem blockRow_onto : ∀ q : Fin 10, ∃ t : Fin cfg0.N, win0_2.index t (0 : Fin 2) = q.val ∧ win0_2.index t (1 : Fin 2) = 0 :=
  (by decide +kernel : ∀ q : Fin 10, ∃ t : Fin grid0.N, win0_2.index t (0 : Fin 2) = q.val ∧ win0_2.index t (1 : Fin 2) = 0)

/-- What point t writes back is its row block of the whole product: both sides are the same 128-term sum once the
    block's row p is read as row (block row · 10000 + p) of the array. -/
theorem point_writes_rows (c : Dev nD) (t : Fin cfg0.N) :
    (dat0 (F := Ideal) V c).flushed 2 t
      = ((cfg0.win 2).blk t).view.read (Elt Ideal) (Cert.Spec.feat1 (F := Ideal) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x16) zeroOffsets]
  obtain ⟨e0, e1, e2, e3, e4, e5⟩ := blockCoords t
  funext j
  show k0_pay1 (F := Ideal) (iblk0 V c 0 t) (iblk0 V c 1 t) j
    = Cert.Spec.feat1 (F := Ideal) (V c main_arg0) (V c main_arg2) (((cfg0.win 2).blk t).view.emb j)
  rw [blockProduct_apply, wholeProduct_apply]
  refine Finset.sum_congr rfl fun k _ => ?_
  have h0 : ((cfg0.win 0).blk t).view.emb (blkRowAt j k) = rowAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (wColAt j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  congr 1
  · show V c main_arg0 (((cfg0.win 0).blk t).view.emb (blkRowAt j k)) = _
    rw [h0]
  · show V c main_arg2 (((cfg0.win 1).blk t).view.emb (wColAt j k)) = _
    rw [h1]

/-! ## The ten blocks tile the rows

Row r lies in the block of the point whose block row is r / 10000; all sixteen columns lie in every block. -/

/-- An index of the output array is in point t's block iff each coordinate is in the block's range on its axis. -/
theorem mem_rowBlock (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v28).slice (win0_2.rect t)).set ↔ _
  rw [View.set_slice_whole, Rect.mem_set_unit]
  exact Iff.rfl

/-- Every entry of the output array lies in some point's block. -/
theorem rows_tiled (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, q0, q1⟩ := blockRow_onto ⟨(i 0).val / 10000, by omega⟩
  have q0' : win0_2.index t (0 : Fin 2) = (i 0).val / 10000 := q0
  refine ⟨t, flush0_2 t, ?_⟩
  rw [mem_rowBlock]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- Region 0's output array after its ten grid points: the whole product of the two argument arrays it reads. -/
theorem array (c : Dev nD) :
    (dat0 (F := Ideal) V c).arrAt 2 cfg0.N = Cert.Spec.feat1 (F := Ideal) (V c main_arg0) (V c main_arg2) := by
  exact (dat0 (F := Ideal) V c).arrAt_eq_of_cover 2 (Cert.Spec.feat1 (F := Ideal) (V c main_arg0) (V c main_arg2))
    (fun t _ => point_writes_rows V c t) rows_tiled

end Cert.KernelIdeal.Region0

end
-- ==== Proof.Region1Value.lean ====
import proofs.«154756_j28063316312557_1_alg».proof.Proof.Gen.KernelIdeal.Frame
import proofs.«154756_j28063316312557_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen Cert.KernelIdeal.Facts₀
open Idealize.ShloMosaic Idealize.ShloMosaic.TcCoe Idealize.SL.Sem
open Idealize.ShloMosaic.Pipeline (Dat Cfg Window)
open Idealize.ShloMosaic.ValueIdx

/-! ## The block product's operand indices

The block's matrix product contracts axis 1 of its [10000,16] left operand with axis 0 of its [16,40] right operand:
at output entry (p, q) and contraction coordinate k it reads the left operand at (p, k) and the right at (k, q). -/

theorem blockDot_lhs_0 (i : S10000x40.Idx) (q : dot_S10000x16_S16x40_S10000x40_1_0_0_1_n_n.contr.Idx) :
    (dot_S10000x16_S16x40_S10000x40_1_0_0_1_n_n.lhsIdx i q 0).val = (i 0).val := by
  unfold DotDims.lhsIdx
  rw [dif_neg (show ¬(0 : Fin S10000x16.rank) ∈ dot_S10000x16_S16x40_S10000x40_1_0_0_1_n_n.lhsBatch by decide), dif_pos (show (0 : Fin S10000x16.rank) ∈ dot_S10000x16_S16x40_S10000x40_1_0_0_1_n_n.lhsNonContracting by decide)]
  rfl
theorem blockDot_lhs_1 (i : S10000x40.Idx) (q : dot_S10000x16_S16x40_S10000x40_1_0_0_1_n_n.contr.Idx) :
    (dot_S10000x16_S16x40_S10000x40_1_0_0_1_n_n.lhsIdx i q 1).val = (q ⟨0, by decide⟩).val :=
  dot_S10000x16_S16x40_S10000x40_1_0_0_1_n_n.lhsIdx_val_of_single rfl i q
theorem blockDot_rhs_0 (i : S10000x40.Idx) (q : dot_S10000x16_S16x40_S10000x40_1_0_0_1_n_n.contr.Idx) :
    (dot_S10000x16_S16x40_S10000x40_1_0_0_1_n_n.rhsIdx i q 0).val = (q ⟨0, by decide⟩).val :=
  dot_S10000x16_S16x40_S10000x40_1_0_0_1_n_n.rhsIdx_val_of_single rfl i q
theorem blockDot_rhs_1 (i : S10000x40.Idx) (q : dot_S10000x16_S16x40_S10000x40_1_0_0_1_n_n.contr.Idx) :
    (dot_S10000x16_S16x40_S10000x40_1_0_0_1_n_n.rhsIdx i q 1).val = (i 1).val := by
  unfold DotDims.rhsIdx
  rw [dif_neg (show ¬(1 : Fin S16x40.rank) ∈ dot_S10000x16_S16x40_S10000x40_1_0_0_1_n_n.rhsBatch by decide), dif_pos (show (1 : Fin S16x40.rank) ∈ dot_S10000x16_S16x40_S10000x40_1_0_0_1_n_n.rhsNonContracting by decide)]
  rfl

/-- The block's product into a zero accumulator, at entry (p, q): the sum over the 16 contraction coordinates of
    left (p, k) times right (k, q). -/
theorem blockDot_apply (l : FVec Ideal S10000x16 .bf16) (r : FVec Ideal S16x40 .bf16) (p : Fin 10000) (q : Fin 40) :
    matmul dot_S10000x16_S16x40_S10000x40_1_0_0_1_n_n none l r (constant (F := Ideal) S10000x40 .f32 0x00000000#32) (ix2 p q)
      = ∑ k : Fin 16, l (ix2 p k) * r (ix2 k q) := by
  simp only [matmul]
  rw [Ideal.matmul_constant_zero_apply, ← Equiv.sum_comp (contrEquiv1 dot_S10000x16_S16x40_S10000x40_1_0_0_1_n_n 16 rfl rfl).symm]
  refine Finset.sum_congr rfl fun k _ => ?_
  have hk := contrEquiv1_symm_val dot_S10000x16_S16x40_S10000x40_1_0_0_1_n_n 16 rfl rfl k
  have el : dot_S10000x16_S16x40_S10000x40_1_0_0_1_n_n.lhsIdx (ix2 p q) ((contrEquiv1 dot_S10000x16_S16x40_S10000x40_1_0_0_1_n_n 16 rfl rfl).symm k) = ix2 p k := funext fun a => Fin.ext (by
    match a with
    | ⟨0, _⟩ => exact blockDot_lhs_0 _ _
    | ⟨1, _⟩ => exact (blockDot_lhs_1 _ _).trans hk)
  have er : dot_S10000x16_S16x40_S10000x40_1_0_0_1_n_n.rhsIdx (ix2 p q) ((contrEquiv1 dot_S10000x16_S16x40_S10000x40_1_0_0_1_n_n 16 rfl rfl).symm k) = ix2 k q := funext fun a => Fin.ext (by
    match a with
    | ⟨0, _⟩ => exact (blockDot_rhs_0 _ _).trans hk
    | ⟨1, _⟩ => exact blockDot_rhs_1 _ _)
  rw [el, er]

/-! ## The whole product's operand indices: the same contraction on the [100000,16] and [16,40] arrays -/

theorem wholeDot_lhs_0 (i : S100000x40.Idx) (q : Cert.ReferenceIdeal.dot_S100000x16_S16x40_S100000x40_1_0_0_1_n_n.contr.Idx) :
    (Cert.ReferenceIdeal.dot_S100000x16_S16x40_S100000x40_1_0_0_1_n_n.lhsIdx i q 0).val = (i 0).val := by
  unfold DotDims.lhsIdx
  rw [dif_neg (show ¬(0 : Fin S100000x16.rank) ∈ Cert.ReferenceIdeal.dot_S100000x16_S16x40_S100000x40_1_0_0_1_n_n.lhsBatch by decide), dif_pos (show (0 : Fin S100000x16.rank) ∈ Cert.ReferenceIdeal.dot_S100000x16_S16x40_S100000x40_1_0_0_1_n_n.lhsNonContracting by decide)]
  rfl
theorem wholeDot_lhs_1 (i : S100000x40.Idx) (q : Cert.ReferenceIdeal.dot_S100000x16_S16x40_S100000x40_1_0_0_1_n_n.contr.Idx) :
    (Cert.ReferenceIdeal.dot_S100000x16_S16x40_S100000x40_1_0_0_1_n_n.lhsIdx i q 1).val = (q ⟨0, by decide⟩).val :=
  Cert.ReferenceIdeal.dot_S100000x16_S16x40_S100000x40_1_0_0_1_n_n.lhsIdx_val_of_single rfl i q
theorem wholeDot_rhs_0 (i : S100000x40.Idx) (q : Cert.ReferenceIdeal.dot_S100000x16_S16x40_S100000x40_1_0_0_1_n_n.contr.Idx) :
    (Cert.ReferenceIdeal.dot_S100000x16_S16x40_S100000x40_1_0_0_1_n_n.rhsIdx i q 0).val = (q ⟨0, by decide⟩).val :=
  Cert.ReferenceIdeal.dot_S100000x16_S16x40_S100000x40_1_0_0_1_n_n.rhsIdx_val_of_single rfl i q
theorem wholeDot_rhs_1 (i : S100000x40.Idx) (q : Cert.ReferenceIdeal.dot_S100000x16_S16x40_S100000x40_1_0_0_1_n_n.contr.Idx) :
    (Cert.ReferenceIdeal.dot_S100000x16_S16x40_S100000x40_1_0_0_1_n_n.rhsIdx i q 1).val = (i 1).val := by
  unfold DotDims.rhsIdx
  rw [dif_neg (show ¬(1 : Fin S16x40.rank) ∈ Cert.ReferenceIdeal.dot_S100000x16_S16x40_S100000x40_1_0_0_1_n_n.rhsBatch by decide), dif_pos (show (1 : Fin S16x40.rank) ∈ Cert.ReferenceIdeal.dot_S100000x16_S16x40_S100000x40_1_0_0_1_n_n.rhsNonContracting by decide)]
  rfl

/-- The second layer's whole product at entry (r, q): the sum over the 16 contraction coordinates of
    l (r, k) times w (k, q). -/
theorem feat2_apply (l : (⟨S100000x16, .f32⟩ : BufTy).Contents (Elt Ideal)) (w : (⟨S16x40, .f32⟩ : BufTy).Contents (Elt Ideal))
    (r : Fin 100000) (q : Fin 40) :
    Cert.Spec.feat2 (F := Ideal) l w (ix2 r q) = ∑ k : Fin 16, l (ix2 r k) * w (ix2 k q) := by
  unfold Cert.Spec.feat2
  simp only [Host.dotGeneral]
  rw [Ideal.dotGeneral_apply, ← Equiv.sum_comp (contrEquiv1 Cert.ReferenceIdeal.dot_S100000x16_S16x40_S100000x40_1_0_0_1_n_n 16 rfl rfl).symm]
  refine Finset.sum_congr rfl fun k _ => ?_
  have hk := contrEquiv1_symm_val Cert.ReferenceIdeal.dot_S100000x16_S16x40_S100000x40_1_0_0_1_n_n 16 rfl rfl k
  have el : Cert.ReferenceIdeal.dot_S100000x16_S16x40_S100000x40_1_0_0_1_n_n.lhsIdx (ix2 r q) ((contrEquiv1 Cert.ReferenceIdeal.dot_S100000x16_S16x40_S100000x40_1_0_0_1_n_n 16 rfl rfl).symm k) = ix2 r k := funext fun a => Fin.ext (by
    match a with
    | ⟨0, _⟩ => exact wholeDot_lhs_0 _ _
    | ⟨1, _⟩ => exact (wholeDot_lhs_1 _ _).trans hk)
  have er : Cert.ReferenceIdeal.dot_S100000x16_S16x40_S100000x40_1_0_0_1_n_n.rhsIdx (ix2 r q) ((contrEquiv1 Cert.ReferenceIdeal.dot_S100000x16_S16x40_S100000x40_1_0_0_1_n_n 16 rfl rfl).symm k) = ix2 k q := funext fun a => Fin.ext (by
    match a with
    | ⟨0, _⟩ => exact (wholeDot_rhs_0 _ _).trans hk
    | ⟨1, _⟩ => exact wholeDot_rhs_1 _ _)
  rw [el, er]

/-! ## The layouts at an entry -/

/-- A [10000,1] column spread along each row of a [10000,16] block: entry (p, k) reads the column's row p. -/
theorem colSpread_apply (d : (⟨2, ![10000, 1]⟩ : Shape).Idx → EReal) (hb : S10000x1.Broadcasts S10000x16) (p : Fin 10000) (k : Fin 16) :
    broadcastTo S10000x16 d hb (ix2 p k) = d (ix2 p (0 : Fin 1)) := by
  refine broadcastTo_apply d hb (ix2 p k) (ix2 p (0 : Fin 1)) fun ax => ?_
  match ax with
  | ⟨0, _⟩ => show p.val = if (10000 : Nat) = 1 then 0 else p.val; rw [if_neg (by decide)]
  | ⟨1, _⟩ => show (0 : Nat) = if (1 : Nat) = 1 then 0 else k.val; rw [if_pos rfl]

/-- A 100000-vector laid as a [100000,1] column by a broadcast along axis 0: entry (r, u) reads the vector at r. -/
theorem colOfVec_apply (x : (⟨1, ![100000]⟩ : Shape).Idx → EReal) (hb : S100000.BroadcastsInDim S100000x1 ![0]) (r : Fin 100000) (u : Fin 1) :
    broadcastInDim S100000x1 ![0] hb x (ix2 r u) = x (ix1 r) := by
  refine broadcastInDim_apply _ hb x (ix2 r u) (ix1 r) fun ax => ?_
  match ax with
  | ⟨0, _⟩ => show r.val = if (100000 : Nat) = 1 then 0 else r.val; rw [if_neg (by decide)]

/-- A [100000,1] column spread along each row of a [100000,16] array: entry (r, k) reads the column's row r. -/
theorem colSpreadWhole_apply (x : (⟨2, ![100000, 1]⟩ : Shape).Idx → EReal) (hb : S100000x1.BroadcastsInDim S100000x16 ![0, 1]) (r : Fin 100000) (k : Fin 16) :
    broadcastInDim S100000x16 ![0, 1] hb x (ix2 r k) = x (ix2 r (0 : Fin 1)) := by
  refine broadcastInDim_apply _ hb x (ix2 r k) (ix2 r (0 : Fin 1)) fun ax => ?_
  match ax with
  | ⟨0, _⟩ => show r.val = if (100000 : Nat) = 1 then 0 else r.val; rw [if_neg (by decide)]
  | ⟨1, _⟩ => show (0 : Nat) = if (1 : Nat) = 1 then 0 else k.val; rw [if_pos rfl]

/-- A 16-vector laid as a [1,16] row by a broadcast along axis 1: entry (u, k) reads the vector at k. -/
theorem rowOfVec_apply (x : (⟨1, ![16]⟩ : Shape).Idx → EReal) (hb : S16.BroadcastsInDim S1x16 ![1]) (u : Fin 1) (k : Fin 16) :
    broadcastInDim S1x16 ![1] hb x (ix2 u k) = x (ix1 k) := by
  refine broadcastInDim_apply _ hb x (ix2 u k) (ix1 k) fun ax => ?_
  match ax with
  | ⟨0, _⟩ => show k.val = if (16 : Nat) = 1 then 0 else k.val; rw [if_neg (by decide)]

/-- A [1,16] row spread down the rows of a [100000,16] array: entry (r, k) reads the row at k. -/
theorem rowSpreadWhole_apply (x : (⟨2, ![1, 16]⟩ : Shape).Idx → EReal) (hb : S1x16.BroadcastsInDim S100000x16 ![0, 1]) (r : Fin 100000) (k : Fin 16) :
    broadcastInDim S100000x16 ![0, 1] hb x (ix2 r k) = x (ix2 (0 : Fin 1) k) := by
  refine broadcastInDim_apply _ hb x (ix2 r k) (ix2 (0 : Fin 1) k) fun ax => ?_
  match ax with
  | ⟨0, _⟩ => show (0 : Nat) = if (1 : Nat) = 1 then 0 else r.val; rw [if_pos rfl]
  | ⟨1, _⟩ => show k.val = if (16 : Nat) = 1 then 0 else k.val; rw [if_neg (by decide)]

/-- A scalar spread over a [100000,16] array reads the scalar everywhere. -/
theorem scalarSpreadWhole_apply (x : (⟨0, ![]⟩ : Shape).Idx → EReal) (hb : S_.BroadcastsInDim S100000x16 ![]) (i : S100000x16.Idx) :
    broadcastInDim S100000x16 ![] hb x i = x ix0 :=
  broadcastInDim_apply _ hb x i ix0 fun ax => ax.elim0

/-- A 100000-vector reshaped to a [100000,1] column: entry (r, u) reads the vector at r. -/
theorem colReshape_apply (x : (⟨1, ![100000]⟩ : Shape).Idx → EReal) (hs : S100000.ShapeCasts S100000x1) (r : Fin 100000) (u : Fin 1) :
    shapeCast S100000x1 x hs (ix2 r u) = x (ix1 r) :=
  shapeCast_apply x hs _ _ (by
    have hu : u.val = 0 := by omega
    rw [Shape.rowMajor_val_two, Shape.rowMajor_val_one]
    show r.val = r.val * 1 + u.val
    rw [hu, Nat.mul_one, Nat.add_zero])

/-! ## The block's payload and the hidden layer at an entry -/

/-- The block the body stores, at entry (p, q): the product with w of the rectified row
    max (a(p,·) + h(p,·)·d(p,0) + b(0,·), 0) of the loaded blocks. -/
theorem pay_apply (a h : Vec Ideal S10000x16 .f32) (d : Vec Ideal S10000x1 .f32) (b : Vec Ideal S1x16 .f32) (w : Vec Ideal S16x40 .f32)
    (p : Fin 10000) (q : Fin 40) :
    k1_pay1 (F := Ideal) a h d b w (ix2 p q)
      = ∑ k : Fin 16, max (a (ix2 p k) + h (ix2 p k) * d (ix2 p (0 : Fin 1)) + b (ix2 (0 : Fin 1) k)) (Ideal.ofBits .f32 0x00000000#32) * w (ix2 k q) := by
  unfold k1_pay1
  rw [blockDot_apply]
  refine Finset.sum_congr rfl fun k _ => ?_
  rw [truncf_apply, truncf_apply, maximumf_apply, addf_apply, addf_apply, mulf_apply, broadcast_apply,
    shapeCast_self, shapeCast_self, shapeCast_self, shapeCast_self, colSpread_apply, broadcastTo_1b_ab_apply]
  rfl

/-- The hidden layer at entry (r, k): max (a(r,k) + h(r,k)·dinv(r)² + b(k), 0). -/
theorem hidden_apply (h a : (⟨S100000x16, .f32⟩ : BufTy).Contents (Elt Ideal)) (dinv : (⟨S100000, .f32⟩ : BufTy).Contents (Elt Ideal))
    (b : (⟨S16, .f32⟩ : BufTy).Contents (Elt Ideal)) (r : Fin 100000) (k : Fin 16) :
    Cert.Spec.hidden (F := Ideal) h a dinv b (ix2 r k)
      = max (a (ix2 r k) + h (ix2 r k) * (dinv (ix1 r) * dinv (ix1 r)) + b (ix1 k)) (Ideal.ofBits .f32 0x00000000#32) := by
  unfold Cert.Spec.hidden
  rw [maximumf_apply, addf_apply, addf_apply, mulf_apply, colSpreadWhole_apply, colOfVec_apply, mulf_apply,
    rowSpreadWhole_apply, rowOfVec_apply, scalarSpreadWhole_apply]
  rfl

/-! ## Where each window's block sits in its array

The grid has ten points; at point t the row-blocked windows (h, a, the dinv² column and the output) are at block
index t along the rows and 0 along the columns, and the bias row and the weight matrix are whole at every point. -/

theorem zeroOff : (![0, 0] : Fin 2 → Nat) = fun _ => 0 :=
  funext fun a => by match a with | ⟨0, _⟩ => rfl | ⟨1, _⟩ => rfl

theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-! ## The input blocks as entries of their arrays

A block's entry sits in the array at block index × block size + 1 × its own coordinate on each axis. -/

/-- Block t of h: entry (p, k) is h at row t·10000 + p. -/
theorem hBlock_apply (c : Dev nD) (t : Fin cfg1.N) (p : Fin 10000) (k : Fin 16) (r : Fin 100000) (hr : r.val = t.val * 10000 + p.val) :
    (iblk1 V c 0 t : Vec Ideal S10000x16 .f32) (ix2 p k) = (V c main_v28 : S100000x16.Idx → EReal) (ix2 r k) := by
  obtain ⟨e0, e1, -⟩ := blockIndex t
  unfold iblk1
  rw [View.read_apply]
  show V c main_v28 _ = V c main_v28 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 16 + 1 * k.val = k.val; rw [e1]; omega

/-- Block t of a: entry (p, k) is a at row t·10000 + p. -/
theorem aBlock_apply (c : Dev nD) (t : Fin cfg1.N) (p : Fin 10000) (k : Fin 16) (r : Fin 100000) (hr : r.val = t.val * 10000 + p.val) :
    (iblk1 V c 1 t : Vec Ideal S10000x16 .f32) (ix2 p k) = (V c main_v41 : S100000x16.Idx → EReal) (ix2 r k) := by
  obtain ⟨-, -, e0, e1, -⟩ := blockIndex t
  unfold iblk1
  rw [View.read_apply]
  show V c main_v41 _ = V c main_v41 _
  congr 1
  funext a
  apply Fin.ext
  match a with
  | ⟨0, _⟩ => show win1_1.index t (0 : Fin 2) * 10000 + 1 * p.val = r.val; rw [e0, hr]; omega
  | ⟨1, _⟩ => show win1_1.index t (1 : Fin 2) * 16 + 1 * k.val = k.val; rw [e1]; omega

/-- Block t of the column: entry (p, 0) is the column at row t·10000 + p. -/
theorem dBlock_apply (c : Dev nD) (t : Fin cfg1.N) (p : Fin 10000) (u : Fin 1) (r : Fin 100000) (hr : r.val = t.val * 10000 + p.val) :
    (iblk1 V c 2 t : Vec Ideal S10000x1 .f32) (ix2 p u) = (V c main_v12 : S100000x1.Idx → EReal) (ix2 r u) := by
  obtain ⟨-, -, -, -, e0, e1, -⟩ := blockIndex t
  unfold iblk1
  rw [View.read_apply]
  show V c main_v12 _ = V c main_v12 _
  congr 1
  funext a
  apply Fin.ext
  match a with
  | ⟨0, _⟩ => show win1_2.index t (0 : Fin 2) * 10000 + 1 * p.val = r.val; rw [e0, hr]; omega
  | ⟨1, _⟩ => show win1_2.index t (1 : Fin 2) * 1 + 1 * u.val = u.val; rw [e1]; omega

/-- The bias row's block is the whole row at every point. -/
theorem bBlock_apply (c : Dev nD) (t : Fin cfg1.N) (u : Fin 1) (k : Fin 16) :
    (iblk1 V c 3 t : Vec Ideal S1x16 .f32) (ix2 u k) = (V c main_v42 : S1x16.Idx → EReal) (ix2 u k) := by
  obtain ⟨-, -, -, -, -, -, e0, e1, -⟩ := blockIndex t
  unfold iblk1
  rw [View.read_apply]
  show V c main_v42 _ = V c main_v42 _
  congr 1
  funext a
  apply Fin.ext
  match a with
  | ⟨0, _⟩ => show win1_3.index t (0 : Fin 2) * 1 + 1 * u.val = u.val; rw [e0]; omega
  | ⟨1, _⟩ => show win1_3.index t (1 : Fin 2) * 16 + 1 * k.val = k.val; rw [e1]; omega

/-- The weight matrix's block is the whole matrix at every point. -/
theorem wBlock_apply (c : Dev nD) (t : Fin cfg1.N) (k : Fin 16) (q : Fin 40) :
    (iblk1 V c 4 t : Vec Ideal S16x40 .f32) (ix2 k q) = (V c main_arg4 : S16x40.Idx → EReal) (ix2 k q) := by
  obtain ⟨-, -, -, -, -, -, -, -, e0, e1, -⟩ := blockIndex t
  unfold iblk1
  rw [View.read_apply]
  show V c main_arg4 _ = V c main_arg4 _
  congr 1
  funext a
  apply Fin.ext
  match a with
  | ⟨0, _⟩ => show win1_4.index t (0 : Fin 2) * 16 + 1 * k.val = k.val; rw [e0]; omega
  | ⟨1, _⟩ => show win1_4.index t (1 : Fin 2) * 40 + 1 * q.val = q.val; rw [e1]; omega

/-! ## The column and the row the region is handed -/

/-- The column's row r is dinv(r)·dinv(r). -/
theorem colEntry (c : Dev nD) (dinv : (⟨S100000, .f32⟩ : BufTy).Contents (Elt Ideal))
    (hD : (V c main_v12 : (⟨S100000x1, .f32⟩ : BufTy).Contents (Elt Ideal)) = shapeCast S100000x1 (mulf (F := Ideal) (φ := .f32) dinv dinv) Facts₀.shapeCasts_S100000_S100000x1)
    (r : Fin 100000) (u : Fin 1) :
    (V c main_v12 : S100000x1.Idx → EReal) (ix2 r u) = dinv (ix1 r) * dinv (ix1 r) := by
  rw [hD, colReshape_apply, mulf_apply]

/-- The row's entry k is b1(k). -/
theorem rowEntry (c : Dev nD) (b1 : (⟨S16, .f32⟩ : BufTy).Contents (Elt Ideal))
    (hB : (V c main_v42 : (⟨S1x16, .f32⟩ : BufTy).Contents (Elt Ideal)) = shapeCast S1x16 b1 Facts₀.shapeCasts_S16_S1x16)
    (u : Fin 1) (k : Fin 16) :
    (V c main_v42 : S1x16.Idx → EReal) (ix2 u k) = b1 (ix1 k) := by
  rw [hB, shapeCast_a_1a_apply]

/-! ## One block of the output -/

/-- Entry (p, q) of what point t stores is entry (t·10000 + p, q) of the whole product: both are
    Σ_k max (a(r,k) + h(r,k)·dinv(r)² + b1(k), 0) · W2(k,q) at r = t·10000 + p. -/
theorem blockEntry (c : Dev nD) (dinv : (⟨S100000, .f32⟩ : BufTy).Contents (Elt Ideal)) (b1 : (⟨S16, .f32⟩ : BufTy).Contents (Elt Ideal))
    (hD : (V c main_v12 : (⟨S100000x1, .f32⟩ : BufTy).Contents (Elt Ideal)) = shapeCast S100000x1 (mulf (F := Ideal) (φ := .f32) dinv dinv) Facts₀.shapeCasts_S100000_S100000x1)
    (hB : (V c main_v42 : (⟨S1x16, .f32⟩ : BufTy).Contents (Elt Ideal)) = shapeCast S1x16 b1 Facts₀.shapeCasts_S16_S1x16)
    (t : Fin cfg1.N) (p : Fin 10000) (q : Fin 40) (r : Fin 100000) (hr : r.val = t.val * 10000 + p.val) :
    k1_pay1 (F := Ideal) (iblk1 V c 1 t) (iblk1 V c 0 t) (iblk1 V c 2 t) (iblk1 V c 3 t) (iblk1 V c 4 t) (ix2 p q)
      = Cert.Spec.feat2 (F := Ideal) (Cert.Spec.hidden (V c main_v28) (V c main_v41) dinv b1) (V c main_arg4) (ix2 r q) := by
  rw [pay_apply, feat2_apply]
  refine Finset.sum_congr rfl fun k _ => ?_
  rw [hidden_apply, aBlock_apply V c t p k r hr, hBlock_apply V c t p k r hr, dBlock_apply V c t p 0 r hr, bBlock_apply, wBlock_apply,
    colEntry V c dinv hD, rowEntry V c b1 hB]

/-- What point t writes back is block t of the whole product. -/
theorem writeBack_eq (c : Dev nD) (dinv : (⟨S100000, .f32⟩ : BufTy).Contents (Elt Ideal)) (b1 : (⟨S16, .f32⟩ : BufTy).Contents (Elt Ideal))
    (hD : (V c main_v12 : (⟨S100000x1, .f32⟩ : BufTy).Contents (Elt Ideal)) = shapeCast S100000x1 (mulf (F := Ideal) (φ := .f32) dinv dinv) Facts₀.shapeCasts_S100000_S100000x1)
    (hB : (V c main_v42 : (⟨S1x16, .f32⟩ : BufTy).Contents (Elt Ideal)) = shapeCast S1x16 b1 Facts₀.shapeCasts_S16_S1x16)
    (t : Fin cfg1.N) :
    (dat1 (F := Ideal) V c).flushed 5 t = ((cfg1.win 5).blk t).view.read (Elt Ideal) (Cert.Spec.feat2 (F := Ideal) (Cert.Spec.hidden (V c main_v28) (V c main_v41) dinv b1) (V c main_arg4)) := by
  show (cfg1.win 5).cut (grid1.coords t) ((dat1 V c).after 5 t) = _
  rw [after1_5]
  unfold out1_5
  rw [View.canon_unit_zero zeroOff]
  simp only [View.ld_unit_zero (S := S10000x16) zeroOff, View.ld_unit_zero (S := S10000x1) zeroOff,
    View.ld_unit_zero (S := S1x16) zeroOff, View.ld_unit_zero (S := S16x40) zeroOff]
  refine funext fun (j : S10000x40.Idx) => ?_
  show k1_pay1 (F := Ideal) (iblk1 V c 1 t) (iblk1 V c 0 t) (iblk1 V c 2 t) (iblk1 V c 3 t) (iblk1 V c 4 t) j
    = Cert.Spec.feat2 (F := Ideal) (Cert.Spec.hidden (V c main_v28) (V c main_v41) dinv b1) (V c main_arg4) (((cfg1.win 5).blk t).view.emb j)
  obtain ⟨p, q, rfl⟩ : ∃ (p : Fin 10000) (q : Fin 40), j = ix2 p q := ⟨j 0, j 1, eq_ix2 j⟩
  have ht : t.val < 10 := t.isLt
  obtain ⟨-, -, -, -, -, -, -, -, -, -, e0, e1⟩ := blockIndex t
  have hemb : ((cfg1.win 5).blk t).view.emb (ix2 p q) = ix2 (⟨t.val * 10000 + p.val, by omega⟩ : Fin 100000) q := by
    funext a
    apply Fin.ext
    match a with
    | ⟨0, _⟩ => show win1_5.index t (0 : Fin 2) * 10000 + 1 * p.val = t.val * 10000 + p.val; rw [e0]; omega
    | ⟨1, _⟩ => show win1_5.index t (1 : Fin 2) * 40 + 1 * q.val = q.val; rw [e1]; omega
  rw [hemb]
  exact blockEntry V c dinv b1 hD hB t p q _ rfl

/-! ## The ten blocks tile the array -/

/-- A row index is in point t's block iff it is in [t·10000, t·10000 + 10000); every column is. -/
theorem mem_rowBlock (t : Fin cfg1.N) (i : S100000x40.Idx) :
    i ∈ ((cfg1.win 5).blk t).view.set ↔ ∀ a : Fin 2, win1_5.index t a * S10000x40.size a ≤ (i a).val ∧ (i a).val < win1_5.index t a * S10000x40.size a + S10000x40.size a := by
  show i ∈ ((View.whole main_v43).slice (win1_5.rect t)).set ↔ _
  rw [View.set_slice_whole, Rect.mem_set_unit]
  exact Iff.rfl

/-- Row r is written back by point r / 10000. -/
theorem rows_tiled (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : cfg1.N = 10 := N_1
  have key : ∀ t : Fin cfg1.N, t.val = (i 0).val / 10000 → i ∈ ((cfg1.win 5).blk t).view.set := by
    intro t ht
    obtain ⟨-, -, -, -, -, -, -, -, -, -, e0, e1⟩ := blockIndex t
    rw [mem_rowBlock]
    intro a
    match a with
    | ⟨0, _⟩ =>
      show win1_5.index t (0 : Fin 2) * 10000 ≤ (i 0).val ∧ (i 0).val < win1_5.index t (0 : Fin 2) * 10000 + 10000
      rw [e0, ht]; omega
    | ⟨1, _⟩ =>
      show win1_5.index t (1 : Fin 2) * 40 ≤ (i 1).val ∧ (i 1).val < win1_5.index t (1 : Fin 2) * 40 + 40
      rw [e1]; omega
  exact ⟨⟨(i 0).val / 10000, by rw [hN]; omega⟩, flush1_5 _, key _ rfl⟩

/-- Region 1's output array after its ten grid points: the second layer's whole product of the hidden layer, when the
    column it multiplies by is dinv² laid as a column and the row it adds is the bias laid as a row. -/
theorem array (c : Dev nD) (dinv : (⟨S100000, .f32⟩ : BufTy).Contents (Elt Ideal)) (b1 : (⟨S16, .f32⟩ : BufTy).Contents (Elt Ideal))
    (hD : (V c main_v12 : (⟨S100000x1, .f32⟩ : BufTy).Contents (Elt Ideal)) = shapeCast S100000x1 (mulf (F := Ideal) (φ := .f32) dinv dinv) Facts₀.shapeCasts_S100000_S100000x1)
    (hB : (V c main_v42 : (⟨S1x16, .f32⟩ : BufTy).Contents (Elt Ideal)) = shapeCast S1x16 b1 Facts₀.shapeCasts_S16_S1x16) :
    (dat1 (F := Ideal) V c).arrAt 5 cfg1.N
      = Cert.Spec.feat2 (F := Ideal) (Cert.Spec.hidden (V c main_v28) (V c main_v41) dinv b1) (V c main_arg4) := by
  exact (dat1 (F := Ideal) V c).arrAt_eq_of_cover 5 _ (fun t _ => writeBack_eq V c dinv b1 hD hB t) rows_tiled

end Cert.KernelIdeal.Region1

end
-- ==== Proof.Region2Value.lean ====
import proofs.«154756_j28063316312557_1_alg».proof.Proof.Gen.KernelIdeal.Frame
import proofs.«154756_j28063316312557_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen Cert.KernelIdeal.Facts₀
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## Columns and rows laid out as matrices, read at an index

A vector of length a viewed as an [a, 1] column, a column repeated along b columns, a vector of length b viewed as
a [1, b] row, a row repeated down a rows, and a scalar repeated everywhere: each reads, at (p, c), one entry of what
it was made from. -/

section Layout
variable {α : Type}

/-- A length-a vector recast as an [a, 1] column reads, at (i, 0), entry i: both sit at row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column repeated along b columns reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same repetition of a column written with an axis map that sends the column's row axis to the matrix's row axis. -/
theorem broadcastInDim_a1_ab_apply {a b : ℕ} (dims : Fin 2 → Fin 2) (hd : (dims 0).val = 0)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c) (dims 0)).val
    have e : dims 0 = 0 := Fin.ext hd
    rw [e]
    split
    · have := p.isLt; omega
    · rfl
  | ⟨1, _⟩ => rfl

/-- A length-a vector laid down an [a, 1] column (its one axis sent to the row axis) reads, at (p, 0), entry p. -/
theorem broadcastInDim_a_a1_apply {a : ℕ} (dims : Fin 1 → Fin 2) (hd : (dims 0).val = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u) (dims 0)).val
    have e : dims 0 = 0 := Fin.ext hd
    rw [e]
    split
    · have := p.isLt; omega
    · rfl

/-- A [1, b] row repeated down a rows (its column axis sent to the column axis) reads, at (p, c), the row's entry c. -/
theorem broadcastInDim_1b_ab_apply {a b : ℕ} (dims : Fin 2 → Fin 2) (hd : (dims 1).val = 1)
    (h : (⟨2, ![1, b]⟩ : Shape).BroadcastsInDim ⟨2, ![a, b]⟩ dims) (x : (⟨2, ![1, b]⟩ : Shape).Idx → α) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c) (dims 1)).val
    have e : dims 1 = 1 := Fin.ext hd
    rw [e]
    split
    · have := c.isLt; omega
    · rfl

/-- A length-b vector laid along a [1, b] row (its one axis sent to the column axis) reads, at (0, c), entry c. -/
theorem broadcastInDim_b_1b_apply {b : ℕ} (dims : Fin 1 → Fin 2) (hd : (dims 0).val = 1)
    (h : (⟨1, ![b]⟩ : Shape).BroadcastsInDim ⟨2, ![1, b]⟩ dims) (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c) (dims 0)).val
    have e : dims 0 = 1 := Fin.ext hd
    rw [e]
    split
    · have := c.isLt; omega
    · rfl

/-- A scalar repeated over any shape reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Layout

/-! ## One row's log-softmax

Both programs compute, for each row z of 40 extended reals, the entries less the row's maximum m, less the logarithm of
the sum over the row of exp (z k − m). The row's maximum is the fold of max from −∞ over the 40 entries. -/

/-- The single-precision word of negative infinity denotes the least extended real. -/
theorem ofBits_negInf : Ideal.ofBits .f32 0xFF800000#32 = (⊥ : EReal) := by simp [Ideal.ofBits, Ideal.ieee]

/-- The maximum of a row of 40 entries: max folded over them from the least element. -/
def rowMax (z : Fin 40 → EReal) : EReal := (Finset.univ : Finset (Fin 40)).fold max ⊥ z

/-- Entry q of the log-softmax of a row: z q − m − log (Σ over the 40 entries k of exp (z k − m)), m the row's maximum. -/
def rowLsm (z : Fin 40 → EReal) (q : Fin 40) : EReal :=
  (z q - rowMax z) - Ideal.log (∑ k : Fin 40, Ideal.exp (z k - rowMax z))

/-- Reducing a matrix along its column axis: the matrix index over result row p with column k put back is (p, k). -/
theorem lift_row {n w : ℕ} (hR : (⟨2, ![n, w]⟩ : Shape).Reduces [1] ⟨1, ![n]⟩) (p : Fin n) (k : Fin w) :
    hR.lift (ix1 p) k = ix2 p k := by
  funext c; apply Fin.ext
  match c with
  | ⟨0, _⟩ => rfl
  | ⟨1, _⟩ => rfl

/-! ## The body's value on one block of 10000 rows -/

/-- The maximum-reduction of a block along its columns, from −∞, is at row p the maximum of that row's 40 entries. -/
theorem blockMax_apply (z : FVec Ideal S10000x40 .f32) (hR : S10000x40.Reduces [1] S10000) (hφ : FKind.Formats .f32)
    (hacc : (0xFF800000#32 : BitVec 32) = FKind.maximumf.neutral .f32 hφ) (p : Fin 10000) :
    multiReduction .maximumf [1] S10000 z 0xFF800000#32 hR hφ hacc (ix1 p) = rowMax (fun k => z (ix2 p k)) := by
  refine (Ideal.multiReduction_maximumf_single z _ hR hφ hacc (ix1 p)).trans ?_
  unfold rowMax
  rw [Ideal.ofBits_def, ofBits_negInf]
  have e : (z ∘ hR.lift (ix1 p)) = fun k : Fin 40 => z (ix2 p k) := funext fun k => congrArg z (lift_row hR p k)
  exact congrArg (fun f : Fin 40 → EReal => Finset.fold max ⊥ f Finset.univ) e

/-- The sum-reduction of a block along its columns, from zero, is at row p the sum of that row's 40 entries. -/
theorem blockSum_apply (x : FVec Ideal S10000x40 .f32) (hR : S10000x40.Reduces [1] S10000) (hφ : FKind.Formats .f32)
    (hacc : (0x00000000#32 : BitVec 32) = FKind.add.neutral .f32 hφ) (p : Fin 10000) :
    multiReduction .add [1] S10000 x 0x00000000#32 hR hφ hacc (ix1 p) = ∑ k : Fin 40, x (ix2 p k) := by
  refine (Ideal.multiReduction_add_single x _ hR hφ hacc (ix1 p)).trans ?_
  exact Finset.sum_congr rfl fun k _ => congrArg x (lift_row hR p k)

/-- The block form of the log-softmax — the row maxima as a column repeated along the rows and subtracted, the row sums of
    the exponentials as a column, its logarithm repeated and subtracted — is at (p, q) the log-softmax of row p at q. -/
theorem blockLsm_apply (z : FVec Ideal S10000x40 .f32) (hR : S10000x40.Reduces [1] S10000) (hφ : FKind.Formats .f32)
    (hmax : (0xFF800000#32 : BitVec 32) = FKind.maximumf.neutral .f32 hφ)
    (hadd : (0x00000000#32 : BitVec 32) = FKind.add.neutral .f32 hφ)
    (hc : S10000.ShapeCasts S10000x1) (hb : S10000x1.Broadcasts S10000x40) (p : Fin 10000) (q : Fin 40) :
    subf (subf z (broadcastTo S10000x40 (shapeCast S10000x1 (multiReduction .maximumf [1] S10000 z 0xFF800000#32 hR hφ hmax) hc) hb))
      (broadcastTo S10000x40 (log (shapeCast S10000x1 (multiReduction .add [1] S10000
        (exp (subf z (broadcastTo S10000x40 (shapeCast S10000x1 (multiReduction .maximumf [1] S10000 z 0xFF800000#32 hR hφ hmax) hc) hb)))
        0x00000000#32 hR hφ hadd) hc)) hb) (ix2 p q)
      = rowLsm (fun k => z (ix2 p k)) q := by
  have hm : ∀ k : Fin 40, broadcastTo S10000x40 (shapeCast S10000x1 (multiReduction .maximumf [1] S10000 z 0xFF800000#32 hR hφ hmax) hc) hb (ix2 p k)
      = rowMax (fun k => z (ix2 p k)) := fun k => by
    rw [broadcastTo_a1_ab_apply, shapeCast_a_a1_apply, blockMax_apply]
  rw [subf_apply, subf_apply, hm q, broadcastTo_a1_ab_apply]
  show _ - Ideal.log (shapeCast S10000x1 _ hc (ix2 p (0 : Fin 1))) = _
  rw [shapeCast_a_a1_apply, blockSum_apply]
  unfold rowLsm
  refine congrArg (fun s => _ - Ideal.log s) (Finset.sum_congr rfl fun k _ => ?_)
  show Ideal.exp (_ - _) = _
  rw [hm k]

/-- The body's stored value at (p, q): the log-softmax, at q, of row p of a + h·d + b, where d is a column (one factor per
    row) and b a row (one summand per column). -/
theorem payload_apply (a h : Vec Ideal S10000x40 .f32) (d : Vec Ideal S10000x1 .f32) (b : Vec Ideal S1x40 .f32) (p : Fin 10000) (q : Fin 40) :
    k2_pay1 (F := Ideal) a h d b (ix2 p q)
      = rowLsm (fun k => a (ix2 p k) + h (ix2 p k) * d (ix2 p (0 : Fin 1)) + b (ix2 (0 : Fin 1) k)) q := by
  unfold k2_pay1
  simp only [shapeCast_self]
  refine (blockLsm_apply _ _ _ _ _ _ _ p q).trans ?_
  refine congrArg (fun z => rowLsm z q) (funext fun k => ?_)
  rw [addf_apply, addf_apply, mulf_apply, broadcastTo_a1_ab_apply, broadcastTo_1b_ab_apply]

/-! ## The whole-array functions at an index -/

/-- The whole-array maximum-reduction along the columns, from −∞, is at row r the maximum of that row's 40 entries. -/
theorem hostRowMax_apply (z : FVec Ideal S100000x40 .f32) (hT : S100000x40.ReducesTo [1] S100000) (hu : 0 < S_.numel) (r : Fin 100000) :
    Host.reduce FloatOps.maximumf z (constant (F := Ideal) S_ .f32 0xFF800000#32) hT hu (ix1 r) = rowMax (fun k => z (ix2 r k)) := by
  have hR : S100000x40.Reduces [1] S100000 := ⟨hT.1, Nat.one_pos, hT.2⟩
  refine (Host.reduce_eq_fold_single FloatOps.maximumf z _ hT hR hu (ix1 r)).trans ?_
  rw [constant_apply, ofBits_negInf]
  unfold rowMax
  have e : (z ∘ hR.lift (ix1 r)) = fun k : Fin 40 => z (ix2 r k) := funext fun k => congrArg z (lift_row hR r k)
  exact congrArg (fun f : Fin 40 → EReal => Finset.fold max ⊥ f Finset.univ) e

/-- The whole-array sum along the columns, from zero, is at row r the sum of that row's 40 entries. -/
theorem hostRowSum_apply (x : FVec Ideal S100000x40 .f32) (hT : S100000x40.ReducesTo [1] S100000) (hu : 0 < S_.numel) (r : Fin 100000) :
    Host.reduceAdd x (constant (F := Ideal) S_ .f32 0x00000000#32) hT hu (ix1 r) = ∑ k : Fin 40, x (ix2 r k) := by
  have hR : S100000x40.Reduces [1] S100000 := ⟨hT.1, Nat.one_pos, hT.2⟩
  show Ideal.hostReduceAdd hT x (Ideal.ofBits .f32 0x00000000#32) (ix1 r) = _
  rw [Ideal.hostReduceAdd_single hT hR, Ideal.ofBits_zero_f32, zero_add]
  exact Finset.sum_congr rfl fun k _ => congrArg x (lift_row hR r k)

/-- A row's entries less its maximum, at (r, k); the outer maximum with −∞ changes nothing, −∞ being the least element. -/
theorem shifted_apply (z : FVec Ideal S100000x40 .f32) (r : Fin 100000) (k : Fin 40) :
    Cert.Spec.shifted (F := Ideal) z (ix2 r k) = z (ix2 r k) - rowMax (fun k => z (ix2 r k)) := by
  unfold Cert.Spec.shifted
  rw [subf_apply, broadcastInDim_a1_ab_apply _ rfl, broadcastInDim_a_a1_apply _ rfl, maximumf_apply,
    broadcastInDim_scalar_apply, constant_apply, ofBits_negInf, hostRowMax_apply, max_eq_right bot_le]

/-- The elementwise logarithm and exponential on whole arrays are, entry by entry, the extended reals' own. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The whole-array log-softmax at (r, q) is the log-softmax of row r at q. -/
theorem logSoftmax_apply (z : FVec Ideal S100000x40 .f32) (r : Fin 100000) (q : Fin 40) :
    Cert.Spec.logSoftmax (F := Ideal) z (ix2 r q) = rowLsm (fun k => z (ix2 r k)) q := by
  unfold Cert.Spec.logSoftmax
  rw [subf_apply, shifted_apply, broadcastInDim_a1_ab_apply _ rfl, hostLog_apply,
    broadcastInDim_a_a1_apply _ rfl, hostRowSum_apply]
  unfold rowLsm
  refine congrArg (fun s => _ - Ideal.log s) (Finset.sum_congr rfl fun k _ => ?_)
  rw [hostExp_apply, shifted_apply]

/-- The second layer's logits at (r, k): a + h · dinv² + b with dinv² taken at row r and the bias at column k. -/
theorem logits_apply (h a : FVec Ideal S100000x40 .f32) (dinv : FVec Ideal S100000 .f32) (b : FVec Ideal S40 .f32) (r : Fin 100000) (k : Fin 40) :
    Cert.Spec.logits (F := Ideal) h a dinv b (ix2 r k) = a (ix2 r k) + h (ix2 r k) * (dinv (ix1 r) * dinv (ix1 r)) + b (ix1 k) := by
  unfold Cert.Spec.logits
  rw [addf_apply, addf_apply, mulf_apply, broadcastInDim_a1_ab_apply _ rfl, broadcastInDim_a_a1_apply _ rfl, mulf_apply,
    broadcastInDim_1b_ab_apply _ rfl, broadcastInDim_b_1b_apply _ rfl]

/-! ## The blocks of the arrays

At grid point t every row-blocked operand is at block (t, 0): rows 10000·t … 10000·t + 9999 of its array, all columns; the
bias row is at block (0, 0), the whole row, at every point. So entry (p, q) of a block is entry (10000·t + p, q) of the
array. -/

/-- The offsets of a whole-buffer access are all zero. -/
theorem zeroOffsets : (![0, 0] : Fin 2 → Nat) = fun _ => 0 := funext fun a => by fin_cases a <;> rfl

/-- The block indices of the five operands at each of the ten grid points, and the bound on the point's number. -/
theorem blockIndex_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 10 :=
  (by decide +kernel : ∀ t : Fin grid2.N, _)

/-- Block t of the features h, at (p, q), is the array at row 10000·t + p, column q. -/
theorem hBlock_apply (c : Dev nD) (t : Fin cfg2.N) (p : Fin 10000) (q : Fin 40) (r : Fin 100000) (hr : r.val = t.val * 10000 + p.val) :
    (iblk2 V c 0 t : Vec Ideal S10000x40 .f32) (ix2 p q) = (V c main_v43 : S100000x40.Idx → EReal) (ix2 r q) := by
  obtain ⟨e0, e1, -⟩ := blockIndex_facts t
  unfold iblk2
  rw [View.read_apply]
  show V c main_v43 _ = V c main_v43 _
  refine congrArg (V c main_v43) ?_
  funext a
  apply Fin.ext
  match a with
  | ⟨0, _⟩ => show win2_0.index t 0 * 10000 + 1 * p.val = r.val; rw [e0, hr]; omega
  | ⟨1, _⟩ => show win2_0.index t 1 * 40 + 1 * q.val = q.val; rw [e1]; omega

/-- Block t of the neighbourhood sums a, at (p, q), is the array at row 10000·t + p, column q. -/
theorem aBlock_apply (c : Dev nD) (t : Fin cfg2.N) (p : Fin 10000) (q : Fin 40) (r : Fin 100000) (hr : r.val = t.val * 10000 + p.val) :
    (iblk2 V c 1 t : Vec Ideal S10000x40 .f32) (ix2 p q) = (V c main_v56 : S100000x40.Idx → EReal) (ix2 r q) := by
  obtain ⟨-, -, e0, e1, -⟩ := blockIndex_facts t
  unfold iblk2
  rw [View.read_apply]
  show V c main_v56 _ = V c main_v56 _
  refine congrArg (V c main_v56) ?_
  funext a
  apply Fin.ext
  match a with
  | ⟨0, _⟩ => show win2_1.index t 0 * 10000 + 1 * p.val = r.val; rw [e0, hr]; omega
  | ⟨1, _⟩ => show win2_1.index t 1 * 40 + 1 * q.val = q.val; rw [e1]; omega

/-- Block t of the column of per-row factors, at (p, 0), is the column at row 10000·t + p. -/
theorem dBlock_apply (c : Dev nD) (t : Fin cfg2.N) (p : Fin 10000) (u : Fin 1) (r : Fin 100000) (hr : r.val = t.val * 10000 + p.val) :
    (iblk2 V c 2 t : Vec Ideal S10000x1 .f32) (ix2 p u) = (V c main_v12 : S100000x1.Idx → EReal) (ix2 r u) := by
  obtain ⟨-, -, -, -, e0, e1, -⟩ := blockIndex_facts t
  unfold iblk2
  rw [View.read_apply]
  show V c main_v12 _ = V c main_v12 _
  refine congrArg (V c main_v12) ?_
  funext a
  apply Fin.ext
  match a with
  | ⟨0, _⟩ => show win2_2.index t 0 * 10000 + 1 * p.val = r.val; rw [e0, hr]; omega
  | ⟨1, _⟩ => show win2_2.index t 1 * 1 + 1 * u.val = u.val; rw [e1]; omega

/-- The bias row's one block is the whole row at every point. -/
theorem bBlock_apply (c : Dev nD) (t : Fin cfg2.N) (u : Fin 1) (q : Fin 40) :
    (iblk2 V c 3 t : Vec Ideal S1x40 .f32) (ix2 u q) = (V c main_v57 : S1x40.Idx → EReal) (ix2 u q) := by
  obtain ⟨-, -, -, -, -, -, e0, e1, -⟩ := blockIndex_facts t
  unfold iblk2
  rw [View.read_apply]
  show V c main_v57 _ = V c main_v57 _
  refine congrArg (V c main_v57) ?_
  funext a
  apply Fin.ext
  match a with
  | ⟨0, _⟩ => show win2_3.index t 0 * 1 + 1 * u.val = u.val; rw [e0]; omega
  | ⟨1, _⟩ => show win2_3.index t 1 * 40 + 1 * q.val = q.val; rw [e1]; omega

/-- Entry (p, q) of the output's block t sits at row 10000·t + p, column q of the output array. -/
theorem outBlock_emb (t : Fin cfg2.N) (p : Fin 10000) (q : Fin 40) (r : Fin 100000) (hr : r.val = t.val * 10000 + p.val) :
    (((cfg2.win 4).blk t).view.emb (ix2 p q) : S100000x40.Idx) = ix2 r q := by
  obtain ⟨-, -, -, -, -, -, -, -, e0, e1, -⟩ := blockIndex_facts t
  funext a
  apply Fin.ext
  match a with
  | ⟨0, _⟩ => show win2_4.index t 0 * 10000 + 1 * p.val = r.val; rw [e0, hr]; omega
  | ⟨1, _⟩ => show win2_4.index t 1 * 40 + 1 * q.val = q.val; rw [e1]; omega

/-- What point t writes back is block t of the whole-array log-softmax of the logits: at (p, q) both are the log-softmax
    of one row of 40 entries, and the two rows agree entry by entry — the blocks of h and a read at row 10000·t + p, the
    column's entry there is dinv² at that row, and the row operand's entry k is the bias at k. -/
theorem written_eq (c : Dev nD) (dinv : (⟨S100000, .f32⟩ : BufTy).Contents (Elt Ideal)) (b2 : (⟨S40, .f32⟩ : BufTy).Contents (Elt Ideal))
    (hD : (V c main_v12 : (⟨S100000x1, .f32⟩ : BufTy).Contents (Elt Ideal)) = shapeCast S100000x1 (mulf (F := Ideal) (φ := .f32) dinv dinv) Facts₀.shapeCasts_S100000_S100000x1)
    (hB : (V c main_v57 : (⟨S1x40, .f32⟩ : BufTy).Contents (Elt Ideal)) = shapeCast S1x40 b2 Facts₀.shapeCasts_S40_S1x40)
    (t : Fin cfg2.N) :
    (dat2 (F := Ideal) V c).flushed 4 t = ((cfg2.win 4).blk t).view.read (Elt Ideal)
      (Cert.Spec.logSoftmax (F := Ideal) (Cert.Spec.logits (V c main_v43) (V c main_v56) dinv b2)) := by
  show (cfg2.win 4).cut (grid2.coords t) ((dat2 V c).after 4 t) = _
  rw [after2_4]
  unfold out2_4
  rw [View.canon_unit_zero zeroOffsets]
  simp only [View.ld_unit_zero (S := S10000x40) zeroOffsets, View.ld_unit_zero (S := S10000x1) zeroOffsets,
    View.ld_unit_zero (S := S1x40) zeroOffsets]
  funext j
  obtain ⟨p, q, rfl⟩ : ∃ (p : Fin 10000) (q : Fin 40), j = ix2 p q := ⟨j 0, j 1, eq_ix2 j⟩
  have ht : t.val < 10 := (blockIndex_facts t).2.2.2.2.2.2.2.2.2.2
  have hrlt : t.val * 10000 + p.val < 100000 := by have := p.isLt; omega
  show k2_pay1 (F := Ideal) (iblk2 V c 1 t) (iblk2 V c 0 t) (iblk2 V c 2 t) (iblk2 V c 3 t) (ix2 p q)
    = Cert.Spec.logSoftmax (F := Ideal) (Cert.Spec.logits (V c main_v43) (V c main_v56) dinv b2) (((cfg2.win 4).blk t).view.emb (ix2 p q))
  rw [outBlock_emb t p q ⟨t.val * 10000 + p.val, hrlt⟩ rfl]
  refine (payload_apply _ _ _ _ p q).trans ?_
  refine Eq.trans ?_ (logSoftmax_apply _ _ q).symm
  refine congrArg (fun z => rowLsm z q) (funext fun k => ?_)
  rw [logits_apply, aBlock_apply V c t p k ⟨t.val * 10000 + p.val, hrlt⟩ rfl, hBlock_apply V c t p k ⟨t.val * 10000 + p.val, hrlt⟩ rfl,
    dBlock_apply V c t p 0 ⟨t.val * 10000 + p.val, hrlt⟩ rfl, bBlock_apply V c t 0 k, hD, hB,
    shapeCast_a_a1_apply, shapeCast_a_1a_apply, mulf_apply]

/-! ## The ten blocks fill the array -/

/-- An index of the output array is in point t's block exactly when each coordinate is in the block's range on its axis. -/
theorem mem_outBlock (t : Fin cfg2.N) (i : S100000x40.Idx) :
    i ∈ ((cfg2.win 4).blk t).view.set ↔ ∀ a : Fin 2, win2_4.index t a * S10000x40.size a ≤ (i a).val ∧ (i a).val < win2_4.index t a * S10000x40.size a + S10000x40.size a := by
  show i ∈ ((View.whole main_v58).slice (win2_4.rect t)).set ↔ _
  rw [View.set_slice_whole, Rect.mem_set_unit]
  exact Iff.rfl

/-- Row r of the output array is in the block of point r / 10000, which writes back as every point does. -/
theorem covered (i : S100000x40.Idx) : ∃ t : Fin cfg2.N, (cfg2.win 4).flush t = true ∧ i ∈ ((cfg2.win 4).blk t).view.set := by
  have hi0 : (i 0).val < 100000 := (i 0).isLt
  have hi1 : (i 1).val < 40 := (i 1).isLt
  have hN : cfg2.N = 10 := N_2
  have hlt : (i 0).val / 10000 < cfg2.N := by rw [hN]; omega
  obtain ⟨-, -, -, -, -, -, -, -, e0, e1, -⟩ := blockIndex_facts ⟨(i 0).val / 10000, hlt⟩
  refine ⟨⟨(i 0).val / 10000, hlt⟩, flush2_4 _, ?_⟩
  rw [mem_outBlock]
  intro a
  match a with
  | ⟨0, _⟩ =>
    show win2_4.index ⟨(i 0).val / 10000, hlt⟩ 0 * 10000 ≤ (i 0).val ∧ (i 0).val < win2_4.index ⟨(i 0).val / 10000, hlt⟩ 0 * 10000 + 10000
    rw [e0]
    show (i 0).val / 10000 * 10000 ≤ (i 0).val ∧ (i 0).val < (i 0).val / 10000 * 10000 + 10000
    omega
  | ⟨1, _⟩ =>
    show win2_4.index ⟨(i 0).val / 10000, hlt⟩ 1 * 40 ≤ (i 1).val ∧ (i 1).val < win2_4.index ⟨(i 0).val / 10000, hlt⟩ 1 * 40 + 40
    rw [e1]
    omega

/-- Region 2's output array after its ten grid points: the row-wise log-softmax of the second layer's logits, when the
    column it multiplies by is dinv² laid as a column and the row it adds is the bias laid as a row. -/
theorem array (c : Dev nD) (dinv : (⟨S100000, .f32⟩ : BufTy).Contents (Elt Ideal)) (b2 : (⟨S40, .f32⟩ : BufTy).Contents (Elt Ideal))
    (hD : (V c main_v12 : (⟨S100000x1, .f32⟩ : BufTy).Contents (Elt Ideal)) = shapeCast S100000x1 (mulf (F := Ideal) (φ := .f32) dinv dinv) Facts₀.shapeCasts_S100000_S100000x1)
    (hB : (V c main_v57 : (⟨S1x40, .f32⟩ : BufTy).Contents (Elt Ideal)) = shapeCast S1x40 b2 Facts₀.shapeCasts_S40_S1x40) :
    (dat2 (F := Ideal) V c).arrAt 4 cfg2.N
      = Cert.Spec.logSoftmax (F := Ideal) (Cert.Spec.logits (V c main_v43) (V c main_v56) dinv b2) :=
  -- every point's write-back is its block of the one whole-array function, and the blocks fill the array
  (dat2 (F := Ideal) V c).arrAt_eq_of_cover 4 _ (fun t _ => written_eq V c dinv b2 hD hB t) covered

end Cert.KernelIdeal.Region2

end
-- ==== Proof.Boundary.lean ====
/-
  The buffer contents at the boundaries between the host stretches and the kernel regions, followed from the
  launch to the return: each array a later region or stretch reads, as a whole-array function of the six argument
  arrays. A stretch's results are the functions of Spec.lean of what it read (HostStretch.lean); a region's output
  array is the whole-array function its ten row blocks tile (Region0Value, Region1Value, Region2Value); a buffer that a
  stretch does not write, or that a region only reads or does not touch, holds what it held before.

  The last boundary's contents at the result's buffer are the whole network of the arguments.
-/
import proofs.«154756_j28063316312557_1_alg».proof.Proof.Gen.KernelIdeal.Frame
import proofs.«154756_j28063316312557_1_alg».proof.Proof.Spec
import proofs.«154756_j28063316312557_1_alg».proof.Proof.HostStretch
import proofs.«154756_j28063316312557_1_alg».proof.Proof.Region0Value
import proofs.«154756_j28063316312557_1_alg».proof.Proof.Region1Value
import proofs.«154756_j28063316312557_1_alg».proof.Proof.Region2Value

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The source list of the edges, from the launch contents. -/
abbrev src := Cert.Spec.srcOf (F := Ideal) (m ((c.tc : Thread nD τ).loc main_arg1))
/-- The target list of the edges. -/
abbrev dst := Cert.Spec.dstOf (F := Ideal) (m ((c.tc : Thread nD τ).loc main_arg1))
/-- deg^(-1/2) of every node. -/
abbrev dinv := Cert.Spec.dinvOf (F := Ideal) (dst m c)
/-- The weight of every edge. -/
abbrev norm := Cert.Spec.normOf (F := Ideal) (dinv m c) (src m c) (dst m c)
/-- The first layer's product. -/
abbrev h1 := Cert.Spec.feat1 (F := Ideal) (m ((c.tc : Thread nD τ).loc main_arg0)) (m ((c.tc : Thread nD τ).loc main_arg2))
/-- The second layer's product. -/
abbrev h2 := Cert.Spec.feat2Of (F := Ideal) (h1 m c) (m ((c.tc : Thread nD τ).loc main_arg1)) (m ((c.tc : Thread nD τ).loc main_arg3)) (m ((c.tc : Thread nD τ).loc main_arg4))

/-! ## After stretch 0 -/

theorem W1_src : W1 m ρ c (Proc.devRef .tc main_v1) = src m c := Stretch.ops0_src (W0 m ρ c)
theorem W1_dst : W1 m ρ c (Proc.devRef .tc main_v3) = dst m c := Stretch.ops0_dst (W0 m ρ c)
theorem W1_col : W1 m ρ c (Proc.devRef .tc main_v12)
    = shapeCast S100000x1 (mulf (F := Ideal) (φ := .f32) (dinv m c) (dinv m c)) Facts₀.shapeCasts_S100000_S100000x1 :=
  Stretch.ops0_col (W0 m ρ c)
theorem W1_norm : W1 m ρ c (Proc.devRef .tc main_v27) = norm m c := Stretch.ops0_norm (W0 m ρ c)
theorem W1_arg0 : W1 m ρ c (Proc.devRef .tc main_arg0) = (m ((c.tc : Thread nD τ).loc main_arg0)) := Stretch.ops0_keep_arg0 (W0 m ρ c)
theorem W1_arg2 : W1 m ρ c (Proc.devRef .tc main_arg2) = (m ((c.tc : Thread nD τ).loc main_arg2)) := Stretch.ops0_keep_arg2 (W0 m ρ c)
theorem W1_arg3 : W1 m ρ c (Proc.devRef .tc main_arg3) = (m ((c.tc : Thread nD τ).loc main_arg3)) := Stretch.ops0_keep_arg3 (W0 m ρ c)
theorem W1_arg4 : W1 m ρ c (Proc.devRef .tc main_arg4) = (m ((c.tc : Thread nD τ).loc main_arg4)) := Stretch.ops0_keep_arg4 (W0 m ρ c)
theorem W1_arg5 : W1 m ρ c (Proc.devRef .tc main_arg5) = (m ((c.tc : Thread nD τ).loc main_arg5)) := Stretch.ops0_keep_arg5 (W0 m ρ c)

/-! ## After region 0: its output array is the first layer's product; it touches nothing else that is read later -/

theorem W2_h1 : W2 m ρ c (Proc.devRef .tc main_v28) = h1 m c := by
  refine (W2_arr m ρ c 2).trans ((Region0.array (V1 m ρ) c).trans ?_)
  show Cert.Spec.feat1 (F := Ideal) (W1 m ρ c (Proc.devRef .tc main_arg0)) (W1 m ρ c (Proc.devRef .tc main_arg2)) = _
  rw [W1_arg0, W1_arg2]

theorem W2_src : W2 m ρ c (Proc.devRef .tc main_v1) = src m c := (W2_of_ne m ρ c main_v1 (by decide)).trans (W1_src m ρ c)
theorem W2_dst : W2 m ρ c (Proc.devRef .tc main_v3) = dst m c := (W2_of_ne m ρ c main_v3 (by decide)).trans (W1_dst m ρ c)
theorem W2_col : W2 m ρ c (Proc.devRef .tc main_v12)
    = shapeCast S100000x1 (mulf (F := Ideal) (φ := .f32) (dinv m c) (dinv m c)) Facts₀.shapeCasts_S100000_S100000x1 :=
  (W2_of_ne m ρ c main_v12 (by decide)).trans (W1_col m ρ c)
theorem W2_norm : W2 m ρ c (Proc.devRef .tc main_v27) = norm m c := (W2_of_ne m ρ c main_v27 (by decide)).trans (W1_norm m ρ c)
theorem W2_arg3 : W2 m ρ c (Proc.devRef .tc main_arg3) = (m ((c.tc : Thread nD τ).loc main_arg3)) := (W2_of_ne m ρ c main_arg3 (by decide)).trans (W1_arg3 m ρ c)
theorem W2_arg4 : W2 m ρ c (Proc.devRef .tc main_arg4) = (m ((c.tc : Thread nD τ).loc main_arg4)) := (W2_of_ne m ρ c main_arg4 (by decide)).trans (W1_arg4 m ρ c)
theorem W2_arg5 : W2 m ρ c (Proc.devRef .tc main_arg5) = (m ((c.tc : Thread nD τ).loc main_arg5)) := (W2_of_ne m ρ c main_arg5 (by decide)).trans (W1_arg5 m ρ c)

/-! ## After stretch 1 -/

theorem W3_agg : W3 m ρ c (Proc.devRef .tc main_v41) = Cert.Spec.agg16 (F := Ideal) (h1 m c) (src m c) (dst m c) (norm m c) := by
  refine (Stretch.ops1_agg (W2 m ρ c)).trans ?_
  rw [W2_h1, W2_src, W2_dst, W2_norm]
theorem W3_row : W3 m ρ c (Proc.devRef .tc main_v42) = shapeCast S1x16 (m ((c.tc : Thread nD τ).loc main_arg3)) Facts₀.shapeCasts_S16_S1x16 := by
  refine (Stretch.ops1_row (W2 m ρ c)).trans ?_
  rw [W2_arg3]
theorem W3_h1 : W3 m ρ c (Proc.devRef .tc main_v28) = h1 m c := (Stretch.ops1_keep_v28 (W2 m ρ c)).trans (W2_h1 m ρ c)
theorem W3_col : W3 m ρ c (Proc.devRef .tc main_v12)
    = shapeCast S100000x1 (mulf (F := Ideal) (φ := .f32) (dinv m c) (dinv m c)) Facts₀.shapeCasts_S100000_S100000x1 :=
  (Stretch.ops1_keep_v12 (W2 m ρ c)).trans (W2_col m ρ c)
theorem W3_arg4 : W3 m ρ c (Proc.devRef .tc main_arg4) = (m ((c.tc : Thread nD τ).loc main_arg4)) := (Stretch.ops1_keep_arg4 (W2 m ρ c)).trans (W2_arg4 m ρ c)
theorem W3_src : W3 m ρ c (Proc.devRef .tc main_v1) = src m c := (Stretch.ops1_keep_v1 (W2 m ρ c)).trans (W2_src m ρ c)
theorem W3_dst : W3 m ρ c (Proc.devRef .tc main_v3) = dst m c := (Stretch.ops1_keep_v3 (W2 m ρ c)).trans (W2_dst m ρ c)
theorem W3_norm : W3 m ρ c (Proc.devRef .tc main_v27) = norm m c := (Stretch.ops1_keep_v27 (W2 m ρ c)).trans (W2_norm m ρ c)
theorem W3_arg5 : W3 m ρ c (Proc.devRef .tc main_arg5) = (m ((c.tc : Thread nD τ).loc main_arg5)) := (Stretch.ops1_keep_arg5 (W2 m ρ c)).trans (W2_arg5 m ρ c)

/-! ## After region 1: its output array is the second layer's product; the column it reads stays; the rest is untouched -/

theorem W4_h2 : W4 m ρ c (Proc.devRef .tc main_v43) = h2 m c := by
  refine (W4_arr m ρ c 5).trans ((Region1.array (V3 m ρ) c (dinv m c) (m ((c.tc : Thread nD τ).loc main_arg3)) (W3_col m ρ c) (W3_row m ρ c)).trans ?_)
  show Cert.Spec.feat2 (F := Ideal) (Cert.Spec.hidden (W3 m ρ c (Proc.devRef .tc main_v28)) (W3 m ρ c (Proc.devRef .tc main_v41)) (dinv m c) (m ((c.tc : Thread nD τ).loc main_arg3)))
    (W3 m ρ c (Proc.devRef .tc main_arg4)) = _
  rw [W3_h1, W3_agg, W3_arg4]
  rfl

theorem W4_col : W4 m ρ c (Proc.devRef .tc main_v12)
    = shapeCast S100000x1 (mulf (F := Ideal) (φ := .f32) (dinv m c) (dinv m c)) Facts₀.shapeCasts_S100000_S100000x1 :=
  ((W4_arr m ρ c 2).trans (((dat1 (V3 m ρ) c).arrAt_in 2 rfl _).trans (A_eq1 (V3 m ρ) c 2))).trans (W3_col m ρ c)
theorem W4_src : W4 m ρ c (Proc.devRef .tc main_v1) = src m c := (W4_of_ne m ρ c main_v1 (by decide)).trans (W3_src m ρ c)
theorem W4_dst : W4 m ρ c (Proc.devRef .tc main_v3) = dst m c := (W4_of_ne m ρ c main_v3 (by decide)).trans (W3_dst m ρ c)
theorem W4_norm : W4 m ρ c (Proc.devRef .tc main_v27) = norm m c := (W4_of_ne m ρ c main_v27 (by decide)).trans (W3_norm m ρ c)
theorem W4_arg5 : W4 m ρ c (Proc.devRef .tc main_arg5) = (m ((c.tc : Thread nD τ).loc main_arg5)) := (W4_of_ne m ρ c main_arg5 (by decide)).trans (W3_arg5 m ρ c)

/-! ## After stretch 2 -/

theorem W5_agg : W5 m ρ c (Proc.devRef .tc main_v56) = Cert.Spec.agg40 (F := Ideal) (h2 m c) (src m c) (dst m c) (norm m c) := by
  refine (Stretch.ops2_agg (W4 m ρ c)).trans ?_
  rw [W4_h2, W4_src, W4_dst, W4_norm]
theorem W5_row : W5 m ρ c (Proc.devRef .tc main_v57) = shapeCast S1x40 (m ((c.tc : Thread nD τ).loc main_arg5)) Facts₀.shapeCasts_S40_S1x40 := by
  refine (Stretch.ops2_row (W4 m ρ c)).trans ?_
  rw [W4_arg5]
theorem W5_h2 : W5 m ρ c (Proc.devRef .tc main_v43) = h2 m c := (Stretch.ops2_keep_v43 (W4 m ρ c)).trans (W4_h2 m ρ c)
theorem W5_col : W5 m ρ c (Proc.devRef .tc main_v12)
    = shapeCast S100000x1 (mulf (F := Ideal) (φ := .f32) (dinv m c) (dinv m c)) Facts₀.shapeCasts_S100000_S100000x1 :=
  (Stretch.ops2_keep_v12 (W4 m ρ c)).trans (W4_col m ρ c)

/-! ## After region 2: the result -/

/-- The last boundary's contents at the result's buffer: the whole network of the argument arrays. -/
theorem result : W6 m ρ c (Proc.devRef .tc main_v58)
    = Cert.Spec.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 4).trans ((Region2.array (V5 m ρ) c (dinv m c) (m ((c.tc : Thread nD τ).loc main_arg5)) (W5_col m ρ c) (W5_row m ρ c)).trans ?_)
  show Cert.Spec.logSoftmax (F := Ideal) (Cert.Spec.logits (W5 m ρ c (Proc.devRef .tc main_v43)) (W5 m ρ c (Proc.devRef .tc main_v56)) (dinv m c) (m ((c.tc : Thread nD τ).loc main_arg5))) = _
  rw [W5_h2, W5_agg]
  rfl

end Cert.KernelIdeal.Boundary

end
-- ==== Proof.RefRun.lean ====
import proofs.«154756_j28063316312557_1_alg».proof.Proof.RefOps
import proofs.«154756_j28063316312557_1_alg».proof.Proof.Spec
import Idealize.ShloMosaic.Lib.StableHlo.Run
import Idealize.ShloMosaic.Lib.Pipeline.Frame

noncomputable section

namespace Cert.ReferenceIdeal.Hand

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-! ## The program in twelve stretches

The 130 operations are cut where few values are still needed: after the two rows of the edge array, after the first
product, after each copy of the degree factors, after each copy of the edge weights, after each neighbourhood sum,
after each layer's combine, and inside the log-softmax after the shifted logits (which are read twice). Each stretch is
read back from an arbitrary valuation `W` of the buffers: its one result that later stretches read is a named
whole-array function of the few buffers it reads, and every buffer it does not write is as `W` had it. The whole
program is then the composition of these functions, which is the network by its definition. -/

/-- Operations 1 to 4 of the 130. The two rows of the edge array, each cut out and flattened: row 0, the source node of every edge, and row 1, the
    target node of every edge. -/
def c1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000 ]

/-- Operations 5 to 5 of the 130. The first layer's matrix product, the node features times the first weight matrix. -/
def c2 : List (HloOp τ sig (Elt F)) :=
  [ binary main_arg0 main_arg2 main_v4 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)) ]

/-- Operations 6 to 15 of the 130. The degrees and their power -1/2: a one added at the target of every edge onto an array of zeros, one more added at
    every node, then the reciprocal square root. -/
def c3 : List (HloOp τ sig (Elt F)) :=
  [ nullary main_cst (constant S_ .f32 0x3F800000#32),
    unary main_cst main_v5 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S3200000x1 ![0] bcast_S3200000_S3200000x1_0 : (⟨S3200000, .i32⟩ : BufTy).Contents (Elt F) → (⟨S3200000x1, .i32⟩ : BufTy).Contents (Elt F)),
    ternary main_v6 main_v7 main_v5 main_v8 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)) ]

/-- Operations 16 to 34 of the 130. The weight of every edge: the degree factor read at the edge's source and at its target (a node number below zero
    counted from the end), and the product of the two. -/
def c4 : List (HloOp τ sig (Elt F)) :=
  [ nullary main_c (constantI S_ 32 0#32),
    unary main_c main_v12 (broadcastInDim S3200000 ![] bcast_S_S3200000 : (⟨S_, .i32⟩ : BufTy).Contents (Elt F) → (⟨S3200000, .i32⟩ : BufTy).Contents (Elt F)),
    binary main_v1 main_v12 main_v13 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v14 (broadcastInDim S3200000 ![] bcast_S_S3200000 : (⟨S_, .i32⟩ : BufTy).Contents (Elt F) → (⟨S3200000, .i32⟩ : BufTy).Contents (Elt F)),
    binary main_v1 main_v14 main_v15 (addi : (⟨S3200000, .i32⟩ : BufTy).Contents (Elt F) → (⟨S3200000, .i32⟩ : BufTy).Contents (Elt F) → (⟨S3200000, .i32⟩ : BufTy).Contents (Elt F)),
    ternary main_v13 main_v15 main_v1 main_v16 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v16 main_v17 (broadcastInDim S3200000x1 ![0] bcast_S3200000_S3200000x1_0 : (⟨S3200000, .i32⟩ : BufTy).Contents (Elt F) → (⟨S3200000x1, .i32⟩ : BufTy).Contents (Elt F)),
    binary main_v11 main_v17 main_v18 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_3 (constantI S_ 32 0#32),
    unary main_c_3 main_v19 (broadcastInDim S3200000 ![] bcast_S_S3200000 : (⟨S_, .i32⟩ : BufTy).Contents (Elt F) → (⟨S3200000, .i32⟩ : BufTy).Contents (Elt F)),
    binary main_v3 main_v19 main_v20 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v21 (broadcastInDim S3200000 ![] bcast_S_S3200000 : (⟨S_, .i32⟩ : BufTy).Contents (Elt F) → (⟨S3200000, .i32⟩ : BufTy).Contents (Elt F)),
    binary main_v3 main_v21 main_v22 (addi : (⟨S3200000, .i32⟩ : BufTy).Contents (Elt F) → (⟨S3200000, .i32⟩ : BufTy).Contents (Elt F) → (⟨S3200000, .i32⟩ : BufTy).Contents (Elt F)),
    ternary main_v20 main_v22 main_v3 main_v23 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v23 main_v24 (broadcastInDim S3200000x1 ![0] bcast_S3200000_S3200000x1_0 : (⟨S3200000, .i32⟩ : BufTy).Contents (Elt F) → (⟨S3200000x1, .i32⟩ : BufTy).Contents (Elt F)),
    binary main_v11 main_v24 main_v25 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v18 main_v25 main_v26 (mulf : (⟨S3200000, .f32⟩ : BufTy).Contents (Elt F) → (⟨S3200000, .f32⟩ : BufTy).Contents (Elt F) → (⟨S3200000, .f32⟩ : BufTy).Contents (Elt F)) ]

/-- Operations 35 to 50 of the 130. The first neighbourhood sum: the 16-column rows read at the sources, each scaled by its edge's weight, added at the
    targets onto zeros. -/
def c5 : List (HloOp τ sig (Elt F)) :=
  [ nullary main_c_5 (constantI S_ 32 0#32),
    unary main_c_5 main_v27 (broadcastInDim S3200000 ![] bcast_S_S3200000 : (⟨S_, .i32⟩ : BufTy).Contents (Elt F) → (⟨S3200000, .i32⟩ : BufTy).Contents (Elt F)),
    binary main_v1 main_v27 main_v28 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v29 (broadcastInDim S3200000 ![] bcast_S_S3200000 : (⟨S_, .i32⟩ : BufTy).Contents (Elt F) → (⟨S3200000, .i32⟩ : BufTy).Contents (Elt F)),
    binary main_v1 main_v29 main_v30 (addi : (⟨S3200000, .i32⟩ : BufTy).Contents (Elt F) → (⟨S3200000, .i32⟩ : BufTy).Contents (Elt F) → (⟨S3200000, .i32⟩ : BufTy).Contents (Elt F)),
    ternary main_v28 main_v30 main_v1 main_v31 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v31 main_v32 (broadcastInDim S3200000x1 ![0] bcast_S3200000_S3200000x1_0 : (⟨S3200000, .i32⟩ : BufTy).Contents (Elt F) → (⟨S3200000x1, .i32⟩ : BufTy).Contents (Elt F)),
    binary main_v4 main_v32 main_v33 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v26 main_v34 (broadcastInDim S3200000x1 ![0] bcast_S3200000_S3200000x1_0 : (⟨S3200000, .f32⟩ : BufTy).Contents (Elt F) → (⟨S3200000x1, .f32⟩ : BufTy).Contents (Elt F)),
    unary main_v34 main_v35 (broadcastInDim S3200000x16 ![0, 1] bcast_S3200000x1_S3200000x16_0_1 : (⟨S3200000x1, .f32⟩ : BufTy).Contents (Elt F) → (⟨S3200000x16, .f32⟩ : BufTy).Contents (Elt F)),
    binary main_v33 main_v35 main_v36 (mulf : (⟨S3200000x16, .f32⟩ : BufTy).Contents (Elt F) → (⟨S3200000x16, .f32⟩ : BufTy).Contents (Elt F) → (⟨S3200000x16, .f32⟩ : BufTy).Contents (Elt F)),
    nullary main_cst_7 (constant S_ .f32 0x00000000#32),
    unary main_cst_7 main_v37 (broadcastInDim S100000x16 ![] bcast_S_S100000x16 : (⟨S_, .f32⟩ : BufTy).Contents (Elt F) → (⟨S100000x16, .f32⟩ : BufTy).Contents (Elt F)),
    unary main_v3 main_v38 (broadcastInDim S3200000x1 ![0] bcast_S3200000_S3200000x1_0 : (⟨S3200000, .i32⟩ : BufTy).Contents (Elt F) → (⟨S3200000x1, .i32⟩ : BufTy).Contents (Elt F)),
    ternary main_v37 main_v38 main_v36 main_v39 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)) ]

/-- Operations 51 to 62 of the 130. The first layer's combine and the second matrix product: the neighbourhood sum, plus the features scaled down each
    row by the squared degree factor, plus the bias along each row; the larger of that and zero; times the second weight
    matrix. -/
def c6 : List (HloOp τ sig (Elt F)) :=
  [ binary main_v11 main_v11 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x16 ![0, 1] bcast_S100000x1_S100000x16_0_1 : (⟨S100000x1, .f32⟩ : BufTy).Contents (Elt F) → (⟨S100000x16, .f32⟩ : BufTy).Contents (Elt F)),
    binary main_v4 main_v42 main_v43 (mulf : (⟨S100000x16, .f32⟩ : BufTy).Contents (Elt F) → (⟨S100000x16, .f32⟩ : BufTy).Contents (Elt F) → (⟨S100000x16, .f32⟩ : BufTy).Contents (Elt F)),
    binary main_v39 main_v43 main_v44 (addf : (⟨S100000x16, .f32⟩ : BufTy).Contents (Elt F) → (⟨S100000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v47) (TRef.of (T := ⟨S100000x16, .f32⟩) main_call0_v0) (TRef.of (T := ⟨S100000x16, .f32⟩) main_v48) maximumf,
    binary main_v48 main_arg4 main_v49 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- Operations 63 to 72 of the 130. The degrees and their power -1/2 once more: the same ten operations as before, on the same targets. -/
def c7 : List (HloOp τ sig (Elt F)) :=
  [ nullary main_cst_8 (constant S_ .f32 0x3F800000#32),
    unary main_cst_8 main_v50 (broadcastInDim S3200000 ![] bcast_S_S3200000 : (⟨S_, .f32⟩ : BufTy).Contents (Elt F) → (⟨S3200000, .f32⟩ : BufTy).Contents (Elt F)),
    nullary main_cst_9 (constant S_ .f32 0x00000000#32),
    unary main_cst_9 main_v51 (broadcastInDim S100000 ![] bcast_S_S100000 : (⟨S_, .f32⟩ : BufTy).Contents (Elt F) → (⟨S100000, .f32⟩ : BufTy).Contents (Elt F)),
    unary main_v3 main_v52 (broadcastInDim S3200000x1 ![0] bcast_S3200000_S3200000x1_0 : (⟨S3200000, .i32⟩ : BufTy).Contents (Elt F) → (⟨S3200000x1, .i32⟩ : BufTy).Contents (Elt F)),
    ternary main_v51 main_v52 main_v50 main_v53 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_10 (constant S_ .f32 0x3F800000#32),
    unary main_cst_10 main_v54 (broadcastInDim S100000 ![] bcast_S_S100000 : (⟨S_, .f32⟩ : BufTy).Contents (Elt F) → (⟨S100000, .f32⟩ : BufTy).Contents (Elt F)),
    binary main_v53 main_v54 main_v55 (addf : (⟨S100000, .f32⟩ : BufTy).Contents (Elt F) → (⟨S100000, .f32⟩ : BufTy).Contents (Elt F) → (⟨S100000, .f32⟩ : BufTy).Contents (Elt F)),
    unary main_v55 main_v56 (Host.rsqrt : (⟨S100000, .f32⟩ : BufTy).Contents (Elt F) → (⟨S100000, .f32⟩ : BufTy).Contents (Elt F)) ]

/-- Operations 73 to 91 of the 130. The weight of every edge once more, from the second copy of the degree factors. -/
def c8 : List (HloOp τ sig (Elt F)) :=
  [ nullary main_c_11 (constantI S_ 32 0#32),
    unary main_c_11 main_v57 (broadcastInDim S3200000 ![] bcast_S_S3200000 : (⟨S_, .i32⟩ : BufTy).Contents (Elt F) → (⟨S3200000, .i32⟩ : BufTy).Contents (Elt F)),
    binary main_v1 main_v57 main_v58 (cmpi .slt : (⟨S3200000, .i32⟩ : BufTy).Contents (Elt F) → (⟨S3200000, .i32⟩ : BufTy).Contents (Elt F) → (⟨S3200000, .i1⟩ : BufTy).Contents (Elt F)),
    nullary main_c_12 (constantI S_ 32 100000#32),
    unary main_c_12 main_v59 (broadcastInDim S3200000 ![] bcast_S_S3200000 : (⟨S_, .i32⟩ : BufTy).Contents (Elt F) → (⟨S3200000, .i32⟩ : BufTy).Contents (Elt F)),
    binary main_v1 main_v59 main_v60 (addi : (⟨S3200000, .i32⟩ : BufTy).Contents (Elt F) → (⟨S3200000, .i32⟩ : BufTy).Contents (Elt F) → (⟨S3200000, .i32⟩ : BufTy).Contents (Elt F)),
    ternary main_v58 main_v60 main_v1 main_v61 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v61 main_v62 (broadcastInDim S3200000x1 ![0] bcast_S3200000_S3200000x1_0 : (⟨S3200000, .i32⟩ : BufTy).Contents (Elt F) → (⟨S3200000x1, .i32⟩ : BufTy).Contents (Elt F)),
    binary main_v56 main_v62 main_v63 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_13 (constantI S_ 32 0#32),
    unary main_c_13 main_v64 (broadcastInDim S3200000 ![] bcast_S_S3200000 : (⟨S_, .i32⟩ : BufTy).Contents (Elt F) → (⟨S3200000, .i32⟩ : BufTy).Contents (Elt F)),
    binary main_v3 main_v64 main_v65 (cmpi .slt : (⟨S3200000, .i32⟩ : BufTy).Contents (Elt F) → (⟨S3200000, .i32⟩ : BufTy).Contents (Elt F) → (⟨S3200000, .i1⟩ : BufTy).Contents (Elt F)),
    nullary main_c_14 (constantI S_ 32 100000#32),
    unary main_c_14 main_v66 (broadcastInDim S3200000 ![] bcast_S_S3200000 : (⟨S_, .i32⟩ : BufTy).Contents (Elt F) → (⟨S3200000, .i32⟩ : BufTy).Contents (Elt F)),
    binary main_v3 main_v66 main_v67 (addi : (⟨S3200000, .i32⟩ : BufTy).Contents (Elt F) → (⟨S3200000, .i32⟩ : BufTy).Contents (Elt F) → (⟨S3200000, .i32⟩ : BufTy).Contents (Elt F)),
    ternary main_v65 main_v67 main_v3 main_v68 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v68 main_v69 (broadcastInDim S3200000x1 ![0] bcast_S3200000_S3200000x1_0 : (⟨S3200000, .i32⟩ : BufTy).Contents (Elt F) → (⟨S3200000x1, .i32⟩ : BufTy).Contents (Elt F)),
    binary main_v56 main_v69 main_v70 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v63 main_v70 main_v71 (mulf : (⟨S3200000, .f32⟩ : BufTy).Contents (Elt F) → (⟨S3200000, .f32⟩ : BufTy).Contents (Elt F) → (⟨S3200000, .f32⟩ : BufTy).Contents (Elt F)) ]

/-- Operations 92 to 107 of the 130. The second neighbourhood sum: the 40-column rows read at the sources, scaled by the edge weights, added at the
    targets onto zeros. -/
def c9 : List (HloOp τ sig (Elt F)) :=
  [ nullary main_c_15 (constantI S_ 32 0#32),
    unary main_c_15 main_v72 (broadcastInDim S3200000 ![] bcast_S_S3200000 : (⟨S_, .i32⟩ : BufTy).Contents (Elt F) → (⟨S3200000, .i32⟩ : BufTy).Contents (Elt F)),
    binary main_v1 main_v72 main_v73 (cmpi .slt : (⟨S3200000, .i32⟩ : BufTy).Contents (Elt F) → (⟨S3200000, .i32⟩ : BufTy).Contents (Elt F) → (⟨S3200000, .i1⟩ : BufTy).Contents (Elt F)),
    nullary main_c_16 (constantI S_ 32 100000#32),
    unary main_c_16 main_v74 (broadcastInDim S3200000 ![] bcast_S_S3200000 : (⟨S_, .i32⟩ : BufTy).Contents (Elt F) → (⟨S3200000, .i32⟩ : BufTy).Contents (Elt F)),
    binary main_v1 main_v74 main_v75 (addi : (⟨S3200000, .i32⟩ : BufTy).Contents (Elt F) → (⟨S3200000, .i32⟩ : BufTy).Contents (Elt F) → (⟨S3200000, .i32⟩ : BufTy).Contents (Elt F)),
    ternary main_v73 main_v75 main_v1 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v76 main_v77 (broadcastInDim S3200000x1 ![0] bcast_S3200000_S3200000x1_0 : (⟨S3200000, .i32⟩ : BufTy).Contents (Elt F) → (⟨S3200000x1, .i32⟩ : BufTy).Contents (Elt F)),
    binary main_v49 main_v77 main_v78 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v71 main_v79 (broadcastInDim S3200000x1 ![0] bcast_S3200000_S3200000x1_0 : (⟨S3200000, .f32⟩ : BufTy).Contents (Elt F) → (⟨S3200000x1, .f32⟩ : BufTy).Contents (Elt F)),
    unary main_v79 main_v80 (broadcastInDim S3200000x40 ![0, 1] bcast_S3200000x1_S3200000x40_0_1 : (⟨S3200000x1, .f32⟩ : BufTy).Contents (Elt F) → (⟨S3200000x40, .f32⟩ : BufTy).Contents (Elt F)),
    binary main_v78 main_v80 main_v81 (mulf : (⟨S3200000x40, .f32⟩ : BufTy).Contents (Elt F) → (⟨S3200000x40, .f32⟩ : BufTy).Contents (Elt F) → (⟨S3200000x40, .f32⟩ : BufTy).Contents (Elt F)),
    nullary main_cst_17 (constant S_ .f32 0x00000000#32),
    unary main_cst_17 main_v82 (broadcastInDim S100000x40 ![] bcast_S_S100000x40 : (⟨S_, .f32⟩ : BufTy).Contents (Elt F) → (⟨S100000x40, .f32⟩ : BufTy).Contents (Elt F)),
    unary main_v3 main_v83 (broadcastInDim S3200000x1 ![0] bcast_S3200000_S3200000x1_0 : (⟨S3200000, .i32⟩ : BufTy).Contents (Elt F) → (⟨S3200000x1, .i32⟩ : BufTy).Contents (Elt F)),
    ternary main_v82 main_v83 main_v81 main_v84 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)) ]

/-- Operations 108 to 115 of the 130. The second layer's combine: the neighbourhood sum, plus the features scaled down each row by the squared degree
    factor, plus the bias along each row. -/
def c10 : List (HloOp τ sig (Elt F)) :=
  [ binary main_v56 main_v56 main_v85 (mulf : (⟨S100000, .f32⟩ : BufTy).Contents (Elt F) → (⟨S100000, .f32⟩ : BufTy).Contents (Elt F) → (⟨S100000, .f32⟩ : BufTy).Contents (Elt F)),
    unary main_v85 main_v86 (broadcastInDim S100000x1 ![0] bcast_S100000_S100000x1_0 : (⟨S100000, .f32⟩ : BufTy).Contents (Elt F) → (⟨S100000x1, .f32⟩ : BufTy).Contents (Elt F)),
    unary main_v86 main_v87 (broadcastInDim S100000x40 ![0, 1] bcast_S100000x1_S100000x40_0_1 : (⟨S100000x1, .f32⟩ : BufTy).Contents (Elt F) → (⟨S100000x40, .f32⟩ : BufTy).Contents (Elt F)),
    binary main_v49 main_v87 main_v88 (mulf : (⟨S100000x40, .f32⟩ : BufTy).Contents (Elt F) → (⟨S100000x40, .f32⟩ : BufTy).Contents (Elt F) → (⟨S100000x40, .f32⟩ : BufTy).Contents (Elt F)),
    binary main_v84 main_v88 main_v89 (addf : (⟨S100000x40, .f32⟩ : BufTy).Contents (Elt F) → (⟨S100000x40, .f32⟩ : BufTy).Contents (Elt F) → (⟨S100000x40, .f32⟩ : BufTy).Contents (Elt F)),
    unary main_arg5 main_v90 (broadcastInDim S1x40 ![1] bcast_S40_S1x40_1 : (⟨S40, .f32⟩ : BufTy).Contents (Elt F) → (⟨S1x40, .f32⟩ : BufTy).Contents (Elt F)),
    unary main_v90 main_v91 (broadcastInDim S100000x40 ![0, 1] bcast_S1x40_S100000x40_0_1 : (⟨S1x40, .f32⟩ : BufTy).Contents (Elt F) → (⟨S100000x40, .f32⟩ : BufTy).Contents (Elt F)),
    binary main_v89 main_v91 main_v92 (addf : (⟨S100000x40, .f32⟩ : BufTy).Contents (Elt F) → (⟨S100000x40, .f32⟩ : BufTy).Contents (Elt F) → (⟨S100000x40, .f32⟩ : BufTy).Contents (Elt F)) ]

/-- Operations 116 to 123 of the 130. Every row less its own maximum (the maximum taken against minus infinity). -/
def c11 : List (HloOp τ sig (Elt F)) :=
  [ TRef.nullary (TRef.of (T := ⟨S_, .f32⟩) main_call1_cst) (constant S_ .f32 0xFF800000#32),
    TRef.binary (TRef.of (T := ⟨S100000x40, .f32⟩) main_v92) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v92) (TRef.of (T := ⟨S100000x40, .f32⟩) main_call1_v4) (TRef.of (T := ⟨S100000x40, .f32⟩) main_call1_v5) subf ]

/-- Operations 124 to 130 of the 130. The shifted rows less the logarithm of the row sums of their exponentials. -/
def c12 : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v93) subf ]

/-! ## What each stretch computes -/

/-- The tail of the row-wise log-softmax as a function of the shifted entries alone: the shifted entries less the
    logarithm of the row sums of their exponentials. The shifted array enters twice, so it is carried as one value. -/
def lsmTail (s : (⟨S100000x40, .f32⟩ : BufTy).Contents (Elt F)) : (⟨S100000x40, .f32⟩ : BufTy).Contents (Elt F) :=
  subf s (broadcastInDim S100000x40 ![0, 1] bcast_S100000x1_S100000x40_0_1
    (Host.log (broadcastInDim S100000x1 ![0] bcast_S100000_S100000x1_0
      (Host.reduceAdd (Host.exp s) (constant S_ .f32 0x00000000#32) reducesTo_S100000x40_S100000_d1 h_S_))))

/-- The log-softmax is that tail of the shifted entries. -/
theorem logSoftmax_eq (z : (⟨S100000x40, .f32⟩ : BufTy).Contents (Elt F)) : Cert.Spec.logSoftmax z = lsmTail (Cert.Spec.shifted z) := rfl

/-- Contents carried to a buffer's own type and back are the contents (the operations of the two called functions
    carry their values so). -/
theorem ofBuf_toBuf {T : BufTy} (x : TRef sig T) (v : T.Contents (Elt F)) : x.ofBuf (x.toBuf v) = v := by
  simp only [TRef.ofBuf, TRef.toBuf, cast_cast, cast_eq]

/-- Row 0 of the edge array after the first stretch. -/
theorem c1_src (W : Valuation τ sig (Elt F)) :
    after c1 W (Proc.devRef .tc main_v1)
      = Cert.Spec.srcOf (W (Proc.devRef .tc main_arg1)) := by
  unfold c1; after_results_simp
  delta Cert.Spec.srcOf
  rfl

/-- Row 1 of the edge array after the first stretch. -/
theorem c1_dst (W : Valuation τ sig (Elt F)) :
    after c1 W (Proc.devRef .tc main_v3)
      = Cert.Spec.dstOf (W (Proc.devRef .tc main_arg1)) := by
  unfold c1; after_results_simp
  delta Cert.Spec.dstOf
  rfl

/-- The first product after the second stretch. -/
theorem c2_feat (W : Valuation τ sig (Elt F)) :
    after c2 W (Proc.devRef .tc main_v4)
      = Cert.Spec.feat1 (W (Proc.devRef .tc main_arg0)) (W (Proc.devRef .tc main_arg2)) := by
  unfold c2; after_results_simp
  delta Cert.Spec.feat1
  rfl

/-- The degree factors after the third stretch, a function of the targets alone. -/
theorem c3_dinv (W : Valuation τ sig (Elt F)) :
    after c3 W (Proc.devRef .tc main_v11)
      = Cert.Spec.dinvOf (W (Proc.devRef .tc main_v3)) := by
  unfold c3; after_results_simp
  delta Cert.Spec.dinvOf Cert.Spec.colIdx
  rfl

/-- The edge weights after the fourth stretch, from the degree factors, the sources and the targets. -/
theorem c4_norm (W : Valuation τ sig (Elt F)) :
    after c4 W (Proc.devRef .tc main_v26)
      = Cert.Spec.normOf (W (Proc.devRef .tc main_v11)) (W (Proc.devRef .tc main_v1)) (W (Proc.devRef .tc main_v3)) := by
  unfold c4; after_results_simp
  delta Cert.Spec.normOf Cert.Spec.wrapIdx
  rfl

/-- The first neighbourhood sum after the fifth stretch. -/
theorem c5_agg (W : Valuation τ sig (Elt F)) :
    after c5 W (Proc.devRef .tc main_v39)
      = Cert.Spec.agg16 (W (Proc.devRef .tc main_v4)) (W (Proc.devRef .tc main_v1)) (W (Proc.devRef .tc main_v3)) (W (Proc.devRef .tc main_v26)) := by
  unfold c5; after_results_simp
  delta Cert.Spec.agg16 Cert.Spec.colIdx Cert.Spec.wrapIdx
  rfl

/-- The second layer's features after the sixth stretch: the product of the first layer's output with the second weights. -/
theorem c6_feat (W : Valuation τ sig (Elt F)) :
    after c6 W (Proc.devRef .tc main_v49)
      = Cert.Spec.feat2 (Cert.Spec.hidden (W (Proc.devRef .tc main_v4)) (W (Proc.devRef .tc main_v39)) (W (Proc.devRef .tc main_v11)) (W (Proc.devRef .tc main_arg3)))
          (W (Proc.devRef .tc main_arg4)) := by
  unfold c6; after_results_simp
  simp only [ofBuf_toBuf]
  delta Cert.Spec.feat2 Cert.Spec.hidden
  rfl

/-- The degree factors after the seventh stretch: the same function of the targets as before. -/
theorem c7_dinv (W : Valuation τ sig (Elt F)) :
    after c7 W (Proc.devRef .tc main_v56)
      = Cert.Spec.dinvOf (W (Proc.devRef .tc main_v3)) := by
  unfold c7; after_results_simp
  delta Cert.Spec.dinvOf Cert.Spec.colIdx
  rfl

/-- The edge weights after the eighth stretch, from the second degree factors. -/
theorem c8_norm (W : Valuation τ sig (Elt F)) :
    after c8 W (Proc.devRef .tc main_v71)
      = Cert.Spec.normOf (W (Proc.devRef .tc main_v56)) (W (Proc.devRef .tc main_v1)) (W (Proc.devRef .tc main_v3)) := by
  unfold c8; after_results_simp
  delta Cert.Spec.normOf Cert.Spec.wrapIdx
  rfl

/-- The second neighbourhood sum after the ninth stretch. -/
theorem c9_agg (W : Valuation τ sig (Elt F)) :
    after c9 W (Proc.devRef .tc main_v84)
      = Cert.Spec.agg40 (W (Proc.devRef .tc main_v49)) (W (Proc.devRef .tc main_v1)) (W (Proc.devRef .tc main_v3)) (W (Proc.devRef .tc main_v71)) := by
  unfold c9; after_results_simp
  delta Cert.Spec.agg40 Cert.Spec.colIdx Cert.Spec.wrapIdx
  rfl

/-- The logits after the tenth stretch. -/
theorem c10_logits (W : Valuation τ sig (Elt F)) :
    after c10 W (Proc.devRef .tc main_v92)
      = Cert.Spec.logits (W (Proc.devRef .tc main_v49)) (W (Proc.devRef .tc main_v84)) (W (Proc.devRef .tc main_v56)) (W (Proc.devRef .tc main_arg5)) := by
  unfold c10; after_results_simp
  delta Cert.Spec.logits
  rfl

/-- The shifted logits after the eleventh stretch. -/
theorem c11_shift (W : Valuation τ sig (Elt F)) :
    after c11 W (Proc.devRef .tc main_call1_v5)
      = Cert.Spec.shifted (W (Proc.devRef .tc main_v92)) := by
  unfold c11; after_results_simp
  simp only [ofBuf_toBuf]
  delta Cert.Spec.shifted
  rfl

/-- The result after the last stretch, a function of the shifted logits alone. -/
theorem c12_out (W : Valuation τ sig (Elt F)) :
    after c12 W (Proc.devRef .tc main_v93)
      = lsmTail (W (Proc.devRef .tc main_call1_v5)) := by
  unfold c12; after_results_simp
  simp only [ofBuf_toBuf]
  delta lsmTail
  rfl

/-! ## What each stretch leaves alone

Each operation writes exactly one buffer; a stretch therefore changes only the buffers in its list of results. -/

/-- An operation whose one written buffer is in a list of references writes only inside that list. -/
theorem writes_sub_of_mem {op : HloOp τ sig (Elt F)} {L : List (Ref sig .tc)} {y : Ref sig .tc}
    (hw : op.writes = {Proc.devRef .tc y}) (hy : y ∈ L) :
    op.writes ⊆ (L.map (Proc.devRef (τ := τ) .tc)).toFinset := by
  rw [hw]
  exact Finset.singleton_subset_iff.mpr (List.mem_toFinset.mpr (List.mem_map_of_mem hy))

/-- One operation's entry: the buffer it writes, found in the stretch's list. -/
local notation "wr" => writes_sub_of_mem rfl (by decide)

/-- The buffers stretch 1 writes. -/
abbrev w1 : List (Ref sig .tc) :=
  [main_v0, main_v1, main_v2, main_v3]

theorem c1_writes : (c1 (F := F)).Forall fun op => op.writes ⊆ (w1.map (Proc.devRef (τ := τ) .tc)).toFinset := by
  unfold c1
  exact ⟨wr, wr, wr, wr⟩

/-- Stretch 1 leaves every buffer it does not write as it was. -/
theorem c1_keep (W : Valuation τ sig (Elt F)) {r : Ref sig .tc} (hr : r ∉ w1) :
    after c1 W (Proc.devRef .tc r) = W (Proc.devRef .tc r) :=
  after_of_writes_sub c1 W c1_writes hr

/-- The buffers stretch 2 writes. -/
abbrev w2 : List (Ref sig .tc) :=
  [main_v4]

theorem c2_writes : (c2 (F := F)).Forall fun op => op.writes ⊆ (w2.map (Proc.devRef (τ := τ) .tc)).toFinset := by
  unfold c2
  exact wr

/-- Stretch 2 leaves every buffer it does not write as it was. -/
theorem c2_keep (W : Valuation τ sig (Elt F)) {r : Ref sig .tc} (hr : r ∉ w2) :
    after c2 W (Proc.devRef .tc r) = W (Proc.devRef .tc r) :=
  after_of_writes_sub c2 W c2_writes hr

/-- The buffers stretch 3 writes. -/
abbrev w3 : List (Ref sig .tc) :=
  [main_cst, main_v5, main_cst_0, main_v6, main_v7, main_v8, main_cst_1, main_v9, main_v10, main_v11]

theorem c3_writes : (c3 (F := F)).Forall fun op => op.writes ⊆ (w3.map (Proc.devRef (τ := τ) .tc)).toFinset := by
  unfold c3
  exact ⟨wr, wr, wr, wr, wr, wr, wr, wr, wr, wr⟩

/-- Stretch 3 leaves every buffer it does not write as it was. -/
theorem c3_keep (W : Valuation τ sig (Elt F)) {r : Ref sig .tc} (hr : r ∉ w3) :
    after c3 W (Proc.devRef .tc r) = W (Proc.devRef .tc r) :=
  after_of_writes_sub c3 W c3_writes hr

/-- The buffers stretch 4 writes. -/
abbrev w4 : List (Ref sig .tc) :=
  [main_c, main_v12, main_v13, main_c_2, main_v14, main_v15, main_v16, main_v17, main_v18, main_c_3, main_v19, main_v20, main_c_4, main_v21, main_v22, main_v23, main_v24, main_v25, main_v26]

theorem c4_writes : (c4 (F := F)).Forall fun op => op.writes ⊆ (w4.map (Proc.devRef (τ := τ) .tc)).toFinset := by
  unfold c4
  exact ⟨wr, wr, wr, wr, wr, wr, wr, wr, wr, wr, wr, wr, wr, wr, wr, wr, wr, wr, wr⟩

/-- Stretch 4 leaves every buffer it does not write as it was. -/
theorem c4_keep (W : Valuation τ sig (Elt F)) {r : Ref sig .tc} (hr : r ∉ w4) :
    after c4 W (Proc.devRef .tc r) = W (Proc.devRef .tc r) :=
  after_of_writes_sub c4 W c4_writes hr

/-- The buffers stretch 5 writes. -/
abbrev w5 : List (Ref sig .tc) :=
  [main_c_5, main_v27, main_v28, main_c_6, main_v29, main_v30, main_v31, main_v32, main_v33, main_v34, main_v35, main_v36, main_cst_7, main_v37, main_v38, main_v39]

theorem c5_writes : (c5 (F := F)).Forall fun op => op.writes ⊆ (w5.map (Proc.devRef (τ := τ) .tc)).toFinset := by
  unfold c5
  exact ⟨wr, wr, wr, wr, wr, wr, wr, wr, wr, wr, wr, wr, wr, wr, wr, wr⟩

/-- Stretch 5 leaves every buffer it does not write as it was. -/
theorem c5_keep (W : Valuation τ sig (Elt F)) {r : Ref sig .tc} (hr : r ∉ w5) :
    after c5 W (Proc.devRef .tc r) = W (Proc.devRef .tc r) :=
  after_of_writes_sub c5 W c5_writes hr

/-- The buffers stretch 6 writes. -/
abbrev w6 : List (Ref sig .tc) :=
  [main_v40, main_v41, main_v42, main_v43, main_v44, main_v45, main_v46, main_v47, main_call0_cst, main_call0_v0, main_v48, main_v49]

theorem c6_writes : (c6 (F := F)).Forall fun op => op.writes ⊆ (w6.map (Proc.devRef (τ := τ) .tc)).toFinset := by
  unfold c6
  exact ⟨wr, wr, wr, wr, wr, wr, wr, wr, wr, wr, wr, wr⟩

/-- Stretch 6 leaves every buffer it does not write as it was. -/
theorem c6_keep (W : Valuation τ sig (Elt F)) {r : Ref sig .tc} (hr : r ∉ w6) :
    after c6 W (Proc.devRef .tc r) = W (Proc.devRef .tc r) :=
  after_of_writes_sub c6 W c6_writes hr

/-- The buffers stretch 7 writes. -/
abbrev w7 : List (Ref sig .tc) :=
  [main_cst_8, main_v50, main_cst_9, main_v51, main_v52, main_v53, main_cst_10, main_v54, main_v55, main_v56]

theorem c7_writes : (c7 (F := F)).Forall fun op => op.writes ⊆ (w7.map (Proc.devRef (τ := τ) .tc)).toFinset := by
  unfold c7
  exact ⟨wr, wr, wr, wr, wr, wr, wr, wr, wr, wr⟩

/-- Stretch 7 leaves every buffer it does not write as it was. -/
theorem c7_keep (W : Valuation τ sig (Elt F)) {r : Ref sig .tc} (hr : r ∉ w7) :
    after c7 W (Proc.devRef .tc r) = W (Proc.devRef .tc r) :=
  after_of_writes_sub c7 W c7_writes hr

/-- The buffers stretch 8 writes. -/
abbrev w8 : List (Ref sig .tc) :=
  [main_c_11, main_v57, main_v58, main_c_12, main_v59, main_v60, main_v61, main_v62, main_v63, main_c_13, main_v64, main_v65, main_c_14, main_v66, main_v67, main_v68, main_v69, main_v70, main_v71]

theorem c8_writes : (c8 (F := F)).Forall fun op => op.writes ⊆ (w8.map (Proc.devRef (τ := τ) .tc)).toFinset := by
  unfold c8
  exact ⟨wr, wr, wr, wr, wr, wr, wr, wr, wr, wr, wr, wr, wr, wr, wr, wr, wr, wr, wr⟩

/-- Stretch 8 leaves every buffer it does not write as it was. -/
theorem c8_keep (W : Valuation τ sig (Elt F)) {r : Ref sig .tc} (hr : r ∉ w8) :
    after c8 W (Proc.devRef .tc r) = W (Proc.devRef .tc r) :=
  after_of_writes_sub c8 W c8_writes hr

/-- The buffers stretch 9 writes. -/
abbrev w9 : List (Ref sig .tc) :=
  [main_c_15, main_v72, main_v73, main_c_16, main_v74, main_v75, main_v76, main_v77, main_v78, main_v79, main_v80, main_v81, main_cst_17, main_v82, main_v83, main_v84]

theorem c9_writes : (c9 (F := F)).Forall fun op => op.writes ⊆ (w9.map (Proc.devRef (τ := τ) .tc)).toFinset := by
  unfold c9
  exact ⟨wr, wr, wr, wr, wr, wr, wr, wr, wr, wr, wr, wr, wr, wr, wr, wr⟩

/-- Stretch 9 leaves every buffer it does not write as it was. -/
theorem c9_keep (W : Valuation τ sig (Elt F)) {r : Ref sig .tc} (hr : r ∉ w9) :
    after c9 W (Proc.devRef .tc r) = W (Proc.devRef .tc r) :=
  after_of_writes_sub c9 W c9_writes hr

/-- The buffers stretch 10 writes. -/
abbrev w10 : List (Ref sig .tc) :=
  [main_v85, main_v86, main_v87, main_v88, main_v89, main_v90, main_v91, main_v92]

theorem c10_writes : (c10 (F := F)).Forall fun op => op.writes ⊆ (w10.map (Proc.devRef (τ := τ) .tc)).toFinset := by
  unfold c10
  exact ⟨wr, wr, wr, wr, wr, wr, wr, wr⟩

/-- Stretch 10 leaves every buffer it does not write as it was. -/
theorem c10_keep (W : Valuation τ sig (Elt F)) {r : Ref sig .tc} (hr : r ∉ w10) :
    after c10 W (Proc.devRef .tc r) = W (Proc.devRef .tc r) :=
  after_of_writes_sub c10 W c10_writes hr

/-- The buffers stretch 11 writes. -/
abbrev w11 : List (Ref sig .tc) :=
  [main_call1_cst, main_call1_v0, main_call1_cst_0, main_call1_v1, main_call1_v2, main_call1_v3, main_call1_v4, main_call1_v5]

theorem c11_writes : (c11 (F := F)).Forall fun op => op.writes ⊆ (w11.map (Proc.devRef (τ := τ) .tc)).toFinset := by
  unfold c11
  exact ⟨wr, wr, wr, wr, wr, wr, wr, wr⟩

/-- Stretch 11 leaves every buffer it does not write as it was. -/
theorem c11_keep (W : Valuation τ sig (Elt F)) {r : Ref sig .tc} (hr : r ∉ w11) :
    after c11 W (Proc.devRef .tc r) = W (Proc.devRef .tc r) :=
  after_of_writes_sub c11 W c11_writes hr

/-- The buffers stretch 12 writes. -/
abbrev w12 : List (Ref sig .tc) :=
  [main_call1_v6, main_call1_cst_1, main_call1_v7, main_call1_v8, main_call1_v9, main_call1_v10, main_v93]

theorem c12_writes : (c12 (F := F)).Forall fun op => op.writes ⊆ (w12.map (Proc.devRef (τ := τ) .tc)).toFinset := by
  unfold c12
  exact ⟨wr, wr, wr, wr, wr, wr, wr⟩

/-- Stretch 12 leaves every buffer it does not write as it was. -/
theorem c12_keep (W : Valuation τ sig (Elt F)) {r : Ref sig .tc} (hr : r ∉ w12) :
    after c12 W (Proc.devRef .tc r) = W (Proc.devRef .tc r) :=
  after_of_writes_sub c12 W c12_writes hr

/-! ## The composition -/

/-- The program is its twelve stretches in a row. -/
theorem ops_eq : (ops : List (HloOp τ sig (Elt F)))
    = c1 ++ (c2 ++ (c3 ++ (c4 ++ (c5 ++ (c6 ++ (c7 ++ (c8 ++ (c9 ++ (c10 ++ (c11 ++ c12)))))))))) := rfl

/-- The result buffer after the whole program, from any valuation: the network of the six argument buffers. Read from
    the last stretch backwards: each stretch's result is its function of buffers the stretches before it computed or
    left alone, down to the arguments; the functions so nested are the network's own definition, the log-softmax
    being the tail applied to the shifted logits. -/
theorem out_eq (V : Valuation τ sig (Elt F)) :
    after ops V (Proc.devRef .tc main_v93)
      = Cert.Spec.network (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq]
  simp only [after_append]
  rw [c12_out, c11_shift, c10_logits]
  rw [c9_agg, c9_keep _ (r := main_v49) (by decide), c9_keep _ (r := main_v56) (by decide), c9_keep _ (r := main_arg5) (by decide)]
  rw [c8_norm, c8_keep _ (r := main_v49) (by decide), c8_keep _ (r := main_v56) (by decide), c8_keep _ (r := main_v1) (by decide), c8_keep _ (r := main_v3) (by decide), c8_keep _ (r := main_arg5) (by decide)]
  rw [c7_dinv, c7_keep _ (r := main_v49) (by decide), c7_keep _ (r := main_v1) (by decide), c7_keep _ (r := main_v3) (by decide), c7_keep _ (r := main_arg5) (by decide)]
  rw [c6_feat, c6_keep _ (r := main_v1) (by decide), c6_keep _ (r := main_v3) (by decide), c6_keep _ (r := main_arg5) (by decide)]
  rw [c5_agg, c5_keep _ (r := main_v4) (by decide), c5_keep _ (r := main_v11) (by decide), c5_keep _ (r := main_v1) (by decide), c5_keep _ (r := main_v3) (by decide), c5_keep _ (r := main_arg3) (by decide), c5_keep _ (r := main_arg4) (by decide), c5_keep _ (r := main_arg5) (by decide)]
  rw [c4_norm, c4_keep _ (r := main_v4) (by decide), c4_keep _ (r := main_v11) (by decide), c4_keep _ (r := main_v1) (by decide), c4_keep _ (r := main_v3) (by decide), c4_keep _ (r := main_arg3) (by decide), c4_keep _ (r := main_arg4) (by decide), c4_keep _ (r := main_arg5) (by decide)]
  rw [c3_dinv, c3_keep _ (r := main_v4) (by decide), c3_keep _ (r := main_v1) (by decide), c3_keep _ (r := main_v3) (by decide), c3_keep _ (r := main_arg3) (by decide), c3_keep _ (r := main_arg4) (by decide), c3_keep _ (r := main_arg5) (by decide)]
  rw [c2_feat, c2_keep _ (r := main_v1) (by decide), c2_keep _ (r := main_v3) (by decide), c2_keep _ (r := main_arg3) (by decide), c2_keep _ (r := main_arg4) (by decide), c2_keep _ (r := main_arg5) (by decide)]
  rw [c1_src, c1_dst, c1_keep _ (r := main_arg0) (by decide), c1_keep _ (r := main_arg2) (by decide), c1_keep _ (r := main_arg3) (by decide), c1_keep _ (r := main_arg4) (by decide), c1_keep _ (r := main_arg5) (by decide)]
  rw [← logSoftmax_eq]
  rfl

/-- A buffer no stretch writes is, after the whole program, as it was. -/
theorem arg_eq (V : Valuation τ sig (Elt F)) {r : Ref sig .tc}
    (h1 : r ∉ w1) (h2 : r ∉ w2) (h3 : r ∉ w3) (h4 : r ∉ w4) (h5 : r ∉ w5) (h6 : r ∉ w6)
    (h7 : r ∉ w7) (h8 : r ∉ w8) (h9 : r ∉ w9) (h10 : r ∉ w10) (h11 : r ∉ w11) (h12 : r ∉ w12) :
    after ops V (Proc.devRef .tc r) = V (Proc.devRef .tc r) := by
  rw [ops_eq]
  simp only [after_append]
  rw [c12_keep _ h12, c11_keep _ h11, c10_keep _ h10, c9_keep _ h9, c8_keep _ h8, c7_keep _ h7,
    c6_keep _ h6, c5_keep _ h5, c4_keep _ h4, c3_keep _ h3, c2_keep _ h2, c1_keep _ h1]

/-- The reference program's run: every weakly fair execution terminates with the result at the whole network of the
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
        = Cert.Spec.network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c => ⟨(h c main_v93).trans (out_eq _),
      (h c main_arg0).trans (arg_eq _ (by decide) (by decide) (by decide) (by decide) (by decide) (by decide) (by decide) (by decide) (by decide) (by decide) (by decide) (by decide)),
      (h c main_arg1).trans (arg_eq _ (by decide) (by decide) (by decide) (by decide) (by decide) (by decide) (by decide) (by decide) (by decide) (by decide) (by decide) (by decide)),
      (h c main_arg2).trans (arg_eq _ (by decide) (by decide) (by decide) (by decide) (by decide) (by decide) (by decide) (by decide) (by decide) (by decide) (by decide) (by decide)),
      (h c main_arg3).trans (arg_eq _ (by decide) (by decide) (by decide) (by decide) (by decide) (by decide) (by decide) (by decide) (by decide) (by decide) (by decide) (by decide)),
      (h c main_arg4).trans (arg_eq _ (by decide) (by decide) (by decide) (by decide) (by decide) (by decide) (by decide) (by decide) (by decide) (by decide) (by decide) (by decide)),
      (h c main_arg5).trans (arg_eq _ (by decide) (by decide) (by decide) (by decide) (by decide) (by decide) (by decide) (by decide) (by decide) (by decide) (by decide) (by decide))⟩)
    (run_seq scopedRefs_eq scopedSems_eq defs main (fun _ => ops) main_eq (fun _ => ops_sub) m ρ)

end Cert.ReferenceIdeal.Hand

end
-- ==== Proof.lean ====
/-
  A two-layer graph convolution, certified equal over the extended reals to its whole-array reference.

  Both programs turn the edge array into degrees, dinv = deg^(-1/2) and edge weights by the same host gathers and
  scatter-adds, and both compute
      log_softmax (layer (relu (layer (x·W1) b1) · W2) b2),    layer H b = agg H + H · dinv² + b,
  where agg gathers rows at the edge sources, weights them and adds them at the edge targets. The reference does every
  step on whole arrays. The kernel program does the three dense steps — x·W1; relu(agg + h·dinv² + b1)·W2;
  log_softmax(agg + h·dinv² + b2) — in regions of ten row blocks of 10000 rows each, with the gathers and scatter-adds
  on the host between them. A matrix product, a row-wise combine and a row-wise log-softmax each act row by row, so a
  region's ten blocks tile exactly the whole-array result (Region0Value, Region1Value, Region2Value); at the extended
  reals a change of float format is the identity, a product into a zero accumulator is the plain sum over the
  contracted index, and the maximum with -∞ that the reference's log-softmax carries is the identity. The host steps
  are one text on both sides and are never opened (Spec.lean, HostStretch.lean, RefRun.lean). No step moves a factor
  across a sum, so the precondition (finite inputs) is not used.

  The frames of the two kernel programs are the generated ones; the reference's frame is its run with the result dropped.
-/
import proofs.«154756_j28063316312557_1_alg».proof.Defs
import proofs.«154756_j28063316312557_1_alg».proof.Proof.Gen.Kernel
import proofs.«154756_j28063316312557_1_alg».proof.Proof.Gen.Kernel.Frame
import proofs.«154756_j28063316312557_1_alg».proof.Proof.Gen.KernelIdeal
import proofs.«154756_j28063316312557_1_alg».proof.Proof.Gen.KernelIdeal.Frame
import proofs.«154756_j28063316312557_1_alg».proof.Proof.Gen.ReferenceIdeal
import proofs.«154756_j28063316312557_1_alg».proof.Proof.Gen.Pre_finite_inputs
import proofs.«154756_j28063316312557_1_alg».proof.Proof.KernelRun
import proofs.«154756_j28063316312557_1_alg».proof.Proof.Boundary
import proofs.«154756_j28063316312557_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories that agree on the arguments both programs end with the result at the whole network of the
    arguments: the kernel program by following its boundaries, the reference by its run. -/
theorem algebraic : Cert.algebraic_KernelIdeal_ReferenceIdeal := by
  intro m ρ m' ρ' _ hagree
  refine ⟨fun c => Cert.Spec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Boundary.result m ρ c), (h c).2⟩)
      (Cert.KernelIdeal.Named.run m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
